-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x4 .f32) (main_arg1 : FVec F S16x1 .f32) (main_arg2 : FVec F S16 .f32) (main_arg3 : FVec F S1x16 .f32) (main_arg4 : FVec F S1 .f32) (main_arg5 : IVec S2x5000000 32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_v13 main_v16
-- ==== Kernel.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x1 : Shape := ⟨2, ![200000, 1]⟩
abbrev S10400x1 : Shape := ⟨2, ![10400, 1]⟩
abbrev S200000x16 : Shape := ⟨2, ![200000, 16]⟩
abbrev S10000x1 : Shape := ⟨2, ![10000, 1]⟩
abbrev S10000x16 : Shape := ⟨2, ![10000, 16]⟩
abbrev S5200000x16 : Shape := ⟨2, ![5200000, 16]⟩
abbrev S10400x16 : Shape := ⟨2, ![10400, 16]⟩
abbrev S1x1 : Shape := ⟨2, ![1, 1]⟩

abbrev nBuf : Space → Nat
  | .hbm => 82
  | .vmem => 24
  | .smem => 0
  | _ => 0

abbrev bufTy : (tb : Table) → Fin (tcTables nBuf tb) → BufTy
  | .hbm, ⟨0, _⟩ => ⟨S200000x4, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S200000, .i32⟩
  | .hbm, ⟨11, _⟩ => ⟨S5200000, .i32⟩
  | .hbm, ⟨12, _⟩ => ⟨S5200000, .i32⟩
  | .hbm, ⟨13, _⟩ => ⟨S_, .f32⟩
  | .hbm, ⟨14, _⟩ => ⟨S5200000, .f32⟩
  | .hbm, ⟨15, _⟩ => ⟨S_, .f32⟩
  | .hbm, ⟨16, _⟩ => ⟨S200000, .f32⟩
  | .hbm, ⟨17, _⟩ => ⟨S5200000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S5200000, .i32⟩
  | .hbm, ⟨29, _⟩ => ⟨S5200000, .i1⟩
  | .hbm, ⟨30, _⟩ => ⟨S_, .i32⟩
  | .hbm, ⟨31, _⟩ => ⟨S5200000, .i32⟩
  | .hbm, ⟨32, _⟩ => ⟨S5200000, .i32⟩
  | .hbm, ⟨33, _⟩ => ⟨S5200000, .i32⟩
  | .hbm, ⟨34, _⟩ => ⟨S5200000x1, .i32⟩
  | .hbm, ⟨35, _⟩ => ⟨S5200000, .f32⟩
  | .hbm, ⟨36, _⟩ => ⟨S_, .i32⟩
  | .hbm, ⟨37, _⟩ => ⟨S5200000, .i32⟩
  | .hbm, ⟨38, _⟩ => ⟨S5200000, .i1⟩
  | .hbm, ⟨39, _⟩ => ⟨S_, .i32⟩
  | .hbm, ⟨40, _⟩ => ⟨S5200000, .i32⟩
  | .hbm, ⟨41, _⟩ => ⟨S5200000, .i32⟩
  | .hbm, ⟨42, _⟩ => ⟨S5200000, .i32⟩
  | .hbm, ⟨43, _⟩ => ⟨S5200000x1, .i32⟩
  | .hbm, ⟨44, _⟩ => ⟨S5200000, .f32⟩
  | .hbm, ⟨45, _⟩ => ⟨S5200000, .f32⟩
  | .hbm, ⟨46, _⟩ => ⟨S5200000x1, .f32⟩
  | .hbm, ⟨47, _⟩ => ⟨S200000x1, .f32⟩
  | .hbm, ⟨48, _⟩ => ⟨S_, .i32⟩
  | .hbm, ⟨49, _⟩ => ⟨S5200000, .i32⟩
  | .hbm, ⟨50, _⟩ => ⟨S5200000, .i1⟩
  | .hbm, ⟨51, _⟩ => ⟨S_, .i32⟩
  | .hbm, ⟨52, _⟩ => ⟨S5200000, .i32⟩
  | .hbm, ⟨53, _⟩ => ⟨S5200000, .i32⟩
  | .hbm, ⟨54, _⟩ => ⟨S5200000, .i32⟩
  | .hbm, ⟨55, _⟩ => ⟨S5200000x1, .i32⟩
  | .hbm, ⟨56, _⟩ => ⟨S5200000x1, .f32⟩
  | .hbm, ⟨57, _⟩ => ⟨S5200000x1, .f32⟩
  | .hbm, ⟨58, _⟩ => ⟨S_, .f32⟩
  | .hbm, ⟨59, _⟩ => ⟨S200000x1, .f32⟩
  | .hbm, ⟨60, _⟩ => ⟨S5200000x1, .i32⟩
  | .hbm, ⟨61, _⟩ => ⟨S200000x1, .f32⟩
  | .hbm, ⟨62, _⟩ => ⟨S1x16, .f32⟩
  | .hbm, ⟨63, _⟩ => ⟨S1x16, .f32⟩
  | .hbm, ⟨64, _⟩ => ⟨S200000x16, .f32⟩
  | .hbm, ⟨65, _⟩ => ⟨S_, .i32⟩
  | .hbm, ⟨66, _⟩ => ⟨S5200000, .i32⟩
  | .hbm, ⟨67, _⟩ => ⟨S5200000, .i1⟩
  | .hbm, ⟨68, _⟩ => ⟨S_, .i32⟩
  | .hbm, ⟨69, _⟩ => ⟨S5200000, .i32⟩
  | .hbm, ⟨70, _⟩ => ⟨S5200000, .i32⟩
  | .hbm, ⟨71, _⟩ => ⟨S5200000, .i32⟩
  | .hbm, ⟨72, _⟩ => ⟨S5200000x1, .i32⟩
  | .hbm, ⟨73, _⟩ => ⟨S5200000x16, .f32⟩
  | .hbm, ⟨74, _⟩ => ⟨S5200000x16, .f32⟩
  | .hbm, ⟨75, _⟩ => ⟨S_, .f32⟩
  | .hbm, ⟨76, _⟩ => ⟨S200000x16, .f32⟩
  | .hbm, ⟨77, _⟩ => ⟨S5200000x1, .i32⟩
  | .hbm, ⟨78, _⟩ => ⟨S200000x16, .f32⟩
  | .hbm, ⟨79, _⟩ => ⟨S16x1, .f32⟩
  | .hbm, ⟨80, _⟩ => ⟨S1x1, .f32⟩
  | .hbm, ⟨81, _⟩ => ⟨S200000x1, .f32⟩
  | .local _ .vmem, ⟨0, _⟩ => ⟨S10400x1, .f32⟩
  | .local _ .vmem, ⟨1, _⟩ => ⟨S10400x1, .f32⟩
  | .local _ .vmem, ⟨2, _⟩ => ⟨S10400x1, .f32⟩
  | .local _ .vmem, ⟨3, _⟩ => ⟨S10400x1, .f32⟩
  | .local _ .vmem, ⟨4, _⟩ => ⟨S10400x1, .f32⟩
  | .local _ .vmem, ⟨5, _⟩ => ⟨S10400x1, .f32⟩
  | .local _ .vmem, ⟨6, _⟩ => ⟨S10000x1, .f32⟩
  | .local _ .vmem, ⟨7, _⟩ => ⟨S10000x1, .f32⟩
  | .local _ .vmem, ⟨8, _⟩ => ⟨S1x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S10400x16, .f32⟩
  | .local _ .vmem, ⟨13, _⟩ => ⟨S10400x16, .f32⟩
  | .local _ .vmem, ⟨14, _⟩ => ⟨S10400x1, .f32⟩
  | .local _ .vmem, ⟨15, _⟩ => ⟨S10400x1, .f32⟩
  | .local _ .vmem, ⟨16, _⟩ => ⟨S10400x16, .f32⟩
  | .local _ .vmem, ⟨17, _⟩ => ⟨S10400x16, .f32⟩
  | .local _ .vmem, ⟨18, _⟩ => ⟨S10000x16, .f32⟩
  | .local _ .vmem, ⟨19, _⟩ => ⟨S10000x16, .f32⟩
  | .local _ .vmem, ⟨20, _⟩ => ⟨S16x1, .f32⟩
  | .local _ .vmem, ⟨21, _⟩ => ⟨S1x1, .f32⟩
  | .local _ .vmem, ⟨22, _⟩ => ⟨S10000x1, .f32⟩
  | .local _ .vmem, ⟨23, _⟩ => ⟨S10000x1, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10400x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  shapeCasts_S5200000_S5200000x1 : S5200000.ShapeCasts S5200000x1
  slices_S200000x4_S200000x1_0_0 : S200000x4.Slices ![0, 0] S200000x1
  inb_S10400x1_S10400x1_0_0 : ∀ a, (![0, 0] : Fin 2 → Nat) a + S10400x1.size a ≤ S10400x1.size a
  h_S10400x1 : 0 < S10400x1.numel
  shapeCasts_S10400x1_S10400x1 : S10400x1.ShapeCasts S10400x1
  bcast_S_S200000x1 : S_.BroadcastsInDim S200000x1 (![] : Fin 0 → Fin S200000x1.rank)
  transposes_S16x1_S1x16_1_0 : S16x1.Transposes [1, 0] S1x16
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  inb_S10400x16_S10400x16_0_0 : ∀ a, (![0, 0] : Fin 2 → Nat) a + S10400x16.size a ≤ S10400x16.size a
  h_S10400x16 : 0 < S10400x16.numel
  shapeCasts_S10400x16_S10400x16 : S10400x16.ShapeCasts S10400x16
  broadcasts_S10400x1_S10400x16 : S10400x1.Broadcasts S10400x16
  bcast_S_S200000x16 : S_.BroadcastsInDim S200000x16 (![] : Fin 0 → Fin S200000x16.rank)
  transposes_S1x16_S16x1_1_0 : S1x16.Transposes [1, 0] S16x1
  shapeCasts_S1_S1x1 : S1.ShapeCasts S1x1
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  gather_S200000x1_S5200000x1_S5200000x1_1_0_n_n_0_1_11_wf : GatherDims.WF S200000x1 S5200000x1 S5200000x1 [1] [0] [] [0] [] 1 ![1, 1]
  scatter_S200000x1_S5200000x1_S5200000x1_1_0_0_1_wf : ScatterDims.WF S200000x1 S5200000x1 S5200000x1 [1] [0] [0] 1
  dot_S10000x1_S1x16_S10000x16_1_0_0_1_n_n_wf : DotDims.WF S10000x1 S1x16 S10000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10400x1.size a ≤ S5200000x1.size a
  hwx0_0 : ∀ i : grid0.Coords, EltTy.bits .f32 = 32 ∨ (Rect.block (s := S5200000x1) S10400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10400x1.size a ≤ S5200000x1.size a
  hwx0_1 : ∀ i : grid0.Coords, EltTy.bits .f32 = 32 ∨ (Rect.block (s := S5200000x1) S10400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10400x1.size a ≤ S5200000x1.size a
  hwx0_2 : ∀ i : grid0.Coords, EltTy.bits .f32 = 32 ∨ (Rect.block (s := S5200000x1) S10400x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S200000x1.size a
  hwx1_0 : ∀ i : grid1.Coords, EltTy.bits .f32 = 32 ∨ (Rect.block (s := S200000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S200000x16.size a
  hwx1_3 : ∀ i : grid1.Coords, EltTy.bits .f32 = 32 ∨ (Rect.block (s := S200000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10400x16.size a ≤ S5200000x16.size a
  hwx2_0 : ∀ i : grid2.Coords, EltTy.bits .f32 = 32 ∨ (Rect.block (s := S5200000x16) S10400x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10400x1.size a ≤ S5200000x1.size a
  hwx2_1 : ∀ i : grid2.Coords, EltTy.bits .f32 = 32 ∨ (Rect.block (s := S5200000x1) S10400x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10400x16.size a ≤ S5200000x16.size a
  hwx2_2 : ∀ i : grid2.Coords, EltTy.bits .f32 = 32 ∨ (Rect.block (s := S5200000x16) S10400x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S200000x16.size a
  hwx3_0 : ∀ i : grid3.Coords, EltTy.bits .f32 = 32 ∨ (Rect.block (s := S200000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S200000x1.size a
  hwx3_3 : ∀ i : grid3.Coords, EltTy.bits .f32 = 32 ∨ (Rect.block (s := S200000x1) S10000x1.size (cc3_transform_3 i) (hinb3_3 i)).WholeWords (EltTy.packing .f32)

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def gather_S200000x1_S5200000x1_S5200000x1_1_0_n_n_0_1_11 : GatherDims S200000x1 S5200000x1 S5200000x1 where
  offsetDims := [1]
  collapsedSliceDims := [0]
  operandBatchingDims := []
  startIndicesBatchingDims := []
  startIndexMap := [0]
  indexVectorDim := 1
  sliceSizes := ![1, 1]
  wf := gather_S200000x1_S5200000x1_S5200000x1_1_0_n_n_0_1_11_wf
def scatter_S200000x1_S5200000x1_S5200000x1_1_0_0_1 : ScatterDims S200000x1 S5200000x1 S5200000x1 where
  updateWindowDims := [1]
  insertedWindowDims := [0]
  scatterDimsToOperandDims := [0]
  indexVectorDim := 1
  wf := scatter_S200000x1_S5200000x1_S5200000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v38) S10400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S10400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S10400x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S10400x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10400x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S200000x1 : Shape := ⟨2, ![200000, 1]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S5200000x16 : Shape := ⟨2, ![5200000, 16]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S200000x1, .f32⟩
  | .hbm, ⟨11, _⟩ => ⟨S200000, .i32⟩
  | .hbm, ⟨12, _⟩ => ⟨S5200000, .i32⟩
  | .hbm, ⟨13, _⟩ => ⟨S5200000, .i32⟩
  | .hbm, ⟨14, _⟩ => ⟨S_, .f32⟩
  | .hbm, ⟨15, _⟩ => ⟨S5200000, .f32⟩
  | .hbm, ⟨16, _⟩ => ⟨S_, .f32⟩
  | .hbm, ⟨17, _⟩ => ⟨S200000, .f32⟩
  | .hbm, ⟨18, _⟩ => ⟨S5200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S5200000, .i32⟩
  | .hbm, ⟨30, _⟩ => ⟨S5200000, .i1⟩
  | .hbm, ⟨31, _⟩ => ⟨S_, .i32⟩
  | .hbm, ⟨32, _⟩ => ⟨S5200000, .i32⟩
  | .hbm, ⟨33, _⟩ => ⟨S5200000, .i32⟩
  | .hbm, ⟨34, _⟩ => ⟨S5200000, .i32⟩
  | .hbm, ⟨35, _⟩ => ⟨S5200000x1, .i32⟩
  | .hbm, ⟨36, _⟩ => ⟨S5200000, .f32⟩
  | .hbm, ⟨37, _⟩ => ⟨S_, .i32⟩
  | .hbm, ⟨38, _⟩ => ⟨S5200000, .i32⟩
  | .hbm, ⟨39, _⟩ => ⟨S5200000, .i1⟩
  | .hbm, ⟨40, _⟩ => ⟨S_, .i32⟩
  | .hbm, ⟨41, _⟩ => ⟨S5200000, .i32⟩
  | .hbm, ⟨42, _⟩ => ⟨S5200000, .i32⟩
  | .hbm, ⟨43, _⟩ => ⟨S5200000, .i32⟩
  | .hbm, ⟨44, _⟩ => ⟨S5200000x1, .i32⟩
  | .hbm, ⟨45, _⟩ => ⟨S5200000, .f32⟩
  | .hbm, ⟨46, _⟩ => ⟨S5200000, .f32⟩
  | .hbm, ⟨47, _⟩ => ⟨S1x16, .f32⟩
  | .hbm, ⟨48, _⟩ => ⟨S200000x16, .f32⟩
  | .hbm, ⟨49, _⟩ => ⟨S_, .i32⟩
  | .hbm, ⟨50, _⟩ => ⟨S5200000, .i32⟩
  | .hbm, ⟨51, _⟩ => ⟨S5200000, .i1⟩
  | .hbm, ⟨52, _⟩ => ⟨S_, .i32⟩
  | .hbm, ⟨53, _⟩ => ⟨S5200000, .i32⟩
  | .hbm, ⟨54, _⟩ => ⟨S5200000, .i32⟩
  | .hbm, ⟨55, _⟩ => ⟨S5200000, .i32⟩
  | .hbm, ⟨56, _⟩ => ⟨S5200000x1, .i32⟩
  | .hbm, ⟨57, _⟩ => ⟨S5200000x16, .f32⟩
  | .hbm, ⟨58, _⟩ => ⟨S5200000x1, .f32⟩
  | .hbm, ⟨59, _⟩ => ⟨S5200000x16, .f32⟩
  | .hbm, ⟨60, _⟩ => ⟨S5200000x16, .f32⟩
  | .hbm, ⟨61, _⟩ => ⟨S_, .f32⟩
  | .hbm, ⟨62, _⟩ => ⟨S200000x16, .f32⟩
  | .hbm, ⟨63, _⟩ => ⟨S5200000x1, .i32⟩
  | .hbm, ⟨64, _⟩ => ⟨S200000x16, .f32⟩
  | .hbm, ⟨65, _⟩ => ⟨S1x16, .f32⟩
  | .hbm, ⟨66, _⟩ => ⟨S200000x16, .f32⟩
  | .hbm, ⟨67, _⟩ => ⟨S200000x16, .f32⟩
  | .hbm, ⟨68, _⟩ => ⟨S_, .f32⟩
  | .hbm, ⟨69, _⟩ => ⟨S200000x16, .f32⟩
  | .hbm, ⟨70, _⟩ => ⟨S200000x16, .f32⟩
  | .hbm, ⟨71, _⟩ => ⟨S200000, .i32⟩
  | .hbm, ⟨72, _⟩ => ⟨S5200000, .i32⟩
  | .hbm, ⟨73, _⟩ => ⟨S5200000, .i32⟩
  | .hbm, ⟨74, _⟩ => ⟨S_, .f32⟩
  | .hbm, ⟨75, _⟩ => ⟨S5200000, .f32⟩
  | .hbm, ⟨76, _⟩ => ⟨S_, .f32⟩
  | .hbm, ⟨77, _⟩ => ⟨S200000, .f32⟩
  | .hbm, ⟨78, _⟩ => ⟨S5200000x1, .i32⟩
  | .hbm, ⟨79, _⟩ => ⟨S200000, .f32⟩
  | .hbm, ⟨80, _⟩ => ⟨S_, .f32⟩
  | .hbm, ⟨81, _⟩ => ⟨S200000, .f32⟩
  | .hbm, ⟨82, _⟩ => ⟨S200000, .i1⟩
  | .hbm, ⟨83, _⟩ => ⟨S200000, .f32⟩
  | .hbm, ⟨84, _⟩ => ⟨S_, .f32⟩
  | .hbm, ⟨85, _⟩ => ⟨S_, .f32⟩
  | .hbm, ⟨86, _⟩ => ⟨S200000, .f32⟩
  | .hbm, ⟨87, _⟩ => ⟨S200000, .f32⟩
  | .hbm, ⟨88, _⟩ => ⟨S_, .i32⟩
  | .hbm, ⟨89, _⟩ => ⟨S5200000, .i32⟩
  | .hbm, ⟨90, _⟩ => ⟨S5200000, .i1⟩
  | .hbm, ⟨91, _⟩ => ⟨S_, .i32⟩
  | .hbm, ⟨92, _⟩ => ⟨S5200000, .i32⟩
  | .hbm, ⟨93, _⟩ => ⟨S5200000, .i32⟩
  | .hbm, ⟨94, _⟩ => ⟨S5200000, .i32⟩
  | .hbm, ⟨95, _⟩ => ⟨S5200000x1, .i32⟩
  | .hbm, ⟨96, _⟩ => ⟨S5200000, .f32⟩
  | .hbm, ⟨97, _⟩ => ⟨S_, .i32⟩
  | .hbm, ⟨98, _⟩ => ⟨S5200000, .i32⟩
  | .hbm, ⟨99, _⟩ => ⟨S5200000, .i1⟩
  | .hbm, ⟨100, _⟩ => ⟨S_, .i32⟩
  | .hbm, ⟨101, _⟩ => ⟨S5200000, .i32⟩
  | .hbm, ⟨102, _⟩ => ⟨S5200000, .i32⟩
  | .hbm, ⟨103, _⟩ => ⟨S5200000, .i32⟩
  | .hbm, ⟨104, _⟩ => ⟨S5200000x1, .i32⟩
  | .hbm, ⟨105, _⟩ => ⟨S5200000, .f32⟩
  | .hbm, ⟨106, _⟩ => ⟨S5200000, .f32⟩
  | .hbm, ⟨107, _⟩ => ⟨S16x1, .f32⟩
  | .hbm, ⟨108, _⟩ => ⟨S200000x1, .f32⟩
  | .hbm, ⟨109, _⟩ => ⟨S_, .i32⟩
  | .hbm, ⟨110, _⟩ => ⟨S5200000, .i32⟩
  | .hbm, ⟨111, _⟩ => ⟨S5200000, .i1⟩
  | .hbm, ⟨112, _⟩ => ⟨S_, .i32⟩
  | .hbm, ⟨113, _⟩ => ⟨S5200000, .i32⟩
  | .hbm, ⟨114, _⟩ => ⟨S5200000, .i32⟩
  | .hbm, ⟨115, _⟩ => ⟨S5200000, .i32⟩
  | .hbm, ⟨116, _⟩ => ⟨S5200000x1, .i32⟩
  | .hbm, ⟨117, _⟩ => ⟨S5200000x1, .f32⟩
  | .hbm, ⟨118, _⟩ => ⟨S5200000x1, .f32⟩
  | .hbm, ⟨119, _⟩ => ⟨S5200000x1, .f32⟩
  | .hbm, ⟨120, _⟩ => ⟨S_, .f32⟩
  | .hbm, ⟨121, _⟩ => ⟨S200000x1, .f32⟩
  | .hbm, ⟨122, _⟩ => ⟨S5200000x1, .i32⟩
  | .hbm, ⟨123, _⟩ => ⟨S200000x1, .f32⟩
  | .hbm, ⟨124, _⟩ => ⟨S1x1, .f32⟩
  | .hbm, ⟨125, _⟩ => ⟨S200000x1, .f32⟩
  | .hbm, ⟨126, _⟩ => ⟨S200000x1, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  slices_S200000x4_S200000x1_0_0 : S200000x4.Slices ![0, 0] S200000x1
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  transposes_S16x1_S1x16_1_0 : S16x1.Transposes [1, 0] S1x16
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  transposes_S1x16_S16x1_1_0 : S1x16.Transposes [1, 0] S16x1
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S200000x1_S1x16_S200000x16_1_0_0_1_n_n_wf : DotDims.WF S200000x1 S1x16 S200000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S200000x16_S16x1_S200000x1_1_0_0_1_n_n_wf : DotDims.WF S200000x16 S16x1 S200000x1 [1] [0] [0] [1] [] []
  gather_S200000x1_S5200000x1_S5200000x1_1_0_n_n_0_1_11_wf : GatherDims.WF S200000x1 S5200000x1 S5200000x1 [1] [0] [] [0] [] 1 ![1, 1]
  scatter_S200000x1_S5200000x1_S5200000x1_1_0_0_1_wf : ScatterDims.WF S200000x1 S5200000x1 S5200000x1 [1] [0] [0] 1

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S5200000x1_S5200000x1_1_0_n_n_0_1_11 : GatherDims S200000x1 S5200000x1 S5200000x1 where
  offsetDims := [1]
  collapsedSliceDims := [0]
  operandBatchingDims := []
  startIndicesBatchingDims := []
  startIndexMap := [0]
  indexVectorDim := 1
  sliceSizes := ![1, 1]
  wf := gather_S200000x1_S5200000x1_S5200000x1_1_0_n_n_0_1_11_wf
def scatter_S200000x1_S5200000x1_S5200000x1_1_0_0_1 : ScatterDims S200000x1 S5200000x1 S5200000x1 where
  updateWindowDims := [1]
  insertedWindowDims := [0]
  scatterDimsToOperandDims := [0]
  indexVectorDim := 1
  wf := scatter_S200000x1_S5200000x1_S5200000x1_1_0_0_1_wf

class Facts : Prop extends Facts₀ where

variable [Facts]
-- ==== Proof.Spec.lean ====
/-
  A two-layer graph convolution with symmetric normalisation, as whole-array functions at the ideal instance.

  An edge list of 5,200,000 edges (the given ones followed by one self loop per node) carries, per edge `e`, a
  wrapped source row `σ e`, a raw target row `δ e` and a weight `ν e`. One layer sends node features `h` to
  `out n = Σ_{e : δ e = n} (h (σ e) · Wᵀ) * ν e + b`. The kernel aggregates first and projects afterwards
  (`(Σ_e h (σ e) * ν e) · Wᵀ + b`); the reference projects first. Both orders are spelt here over the same
  `σ`, `δ`, `ν`, so that their equality is a statement about finite sums of reals.
-/
import proofs.«127427_j39908836114582_1_alg».proof.KernelIdeal
import proofs.«127427_j39908836114582_1_alg».proof.ReferenceIdeal
import Idealize.ShloMosaic.Lib.ValueIdx
import Idealize.ShloMosaic.PureOps.Ideal

noncomputable section

namespace Cert.GCN

open Idealize.ShloMosaic Idealize.ShloMosaic.ValueIdx

/-- Shapes, as literals (the printed programs' abbreviations unfold to these). -/
abbrev SE1 : Shape := ⟨2, ![5200000, 1]⟩
abbrev SE16 : Shape := ⟨2, ![5200000, 16]⟩
abbrev SE : Shape := ⟨1, ![5200000]⟩
abbrev SN1 : Shape := ⟨2, ![200000, 1]⟩
abbrev SN16 : Shape := ⟨2, ![200000, 16]⟩
abbrev S1x16 : Shape := ⟨2, ![1, 16]⟩
abbrev S16x1 : Shape := ⟨2, ![16, 1]⟩
abbrev S1x1 : Shape := ⟨2, ![1, 1]⟩

/-- The float zero word, at the ideal instance. -/
abbrev zeroI : EReal := Ideal.ofBits .f32 0x00000000#32

/-- The edges whose (raw, signed) target row is node `n`: the updates a scatter-add lands on row `n`. -/
def landing (δ : IVec SE1 32) (n : Fin 200000) : Finset (Fin 5200000) :=
  Finset.univ.filter fun e => (δ (ix2 e 0)).toInt = (n.val : ℤ)

/-! ## What each kernel region computes on its whole arrays -/

/-- Per-edge message of width 1: the gathered feature times the edge weight. -/
def scale1 (g nc : FVec Ideal SE1 .f32) : FVec Ideal SE1 .f32 := fun i => g i * nc i
/-- Per-edge message of width 16: every column of the gathered row times the edge's weight. -/
def scale16 (g : FVec Ideal SE16 .f32) (nc : FVec Ideal SE1 .f32) : FVec Ideal SE16 .f32 :=
  fun i => g i * nc (ix2 (i 0) 0)
/-- The first projection, bias and rectifier: `max (Σ_k z (n, k) * wt (k, f) + b (0, f)) 0`. -/
def dense1 (z : FVec Ideal SN1 .f32) (wt b : FVec Ideal S1x16 .f32) : FVec Ideal SN16 .f32 :=
  fun i => max ((∑ k : Fin 1, z (ix2 (i 0) k) * wt (ix2 k (i 1))) + b (ix2 0 (i 1))) zeroI
/-- The second projection and bias: `Σ_k z (n, k) * wt (k, f) + b (0, f)`. -/
def dense16 (z : FVec Ideal SN16 .f32) (wt : FVec Ideal S16x1 .f32) (b : FVec Ideal S1x1 .f32) : FVec Ideal SN1 .f32 :=
  fun i => (∑ k : Fin 16, z (ix2 (i 0) k) * wt (ix2 k (i 1))) + b (ix2 0 (i 1))

/-! ## One layer, as each program spells it, over the same wrapped sources `σ`, raw targets `δ` and weights `ν` -/

section Layers

variable [Cert.KernelIdeal.Facts] [Cert.ReferenceIdeal.Facts]
open Cert.KernelIdeal.Facts₀ in
/-- The weights as the kernel's column operand: a reshape of `ν` to [E, 1]. -/
def colK (ν : FVec Ideal SE .f32) : FVec Ideal SE1 .f32 :=
  shapeCast Cert.KernelIdeal.S5200000x1 ν shapeCasts_S5200000_S5200000x1

open Cert.KernelIdeal Cert.KernelIdeal.Facts₀ in
/-- The kernel's first layer: aggregate the width-1 features, then project, add the bias, rectify. -/
def kLayer1 (σ δ : IVec SE1 32) (ν : FVec Ideal SE .f32) (x0c : FVec Ideal SN1 .f32) (w1t : FVec Ideal S1x16 .f32)
    (b1 : FVec Ideal Cert.KernelIdeal.S16 .f32) : FVec Ideal SN16 .f32 :=
  dense1
    (Host.scatterAdd scatter_S200000x1_S5200000x1_S5200000x1_1_0_0_1
      (broadcastInDim S200000x1 ![] bcast_S_S200000x1 (constant S_ .f32 0x00000000#32)) δ
      (scale1 (Host.gather gather_S200000x1_S5200000x1_S5200000x1_1_0_n_n_0_1_11 x0c σ) (colK ν)))
    w1t (shapeCast Cert.KernelIdeal.S1x16 b1 shapeCasts_S16_S1x16)

open Cert.KernelIdeal Cert.KernelIdeal.Facts₀ in
/-- The kernel's second layer: aggregate the width-16 features, then project and add the bias. -/
def kLayer2 (σ δ : IVec SE1 32) (ν : FVec Ideal SE .f32) (h : FVec Ideal SN16 .f32) (w2t : FVec Ideal S16x1 .f32)
    (b2 : FVec Ideal Cert.KernelIdeal.S1 .f32) : FVec Ideal SN1 .f32 :=
  dense16
    (Host.scatterAdd scatter_S200000x16_S5200000x1_S5200000x16_1_0_0_1
      (broadcastInDim S200000x16 ![] bcast_S_S200000x16 (constant S_ .f32 0x00000000#32)) δ
      (scale16 (Host.gather gather_S200000x16_S5200000x1_S5200000x16_1_0_n_n_0_1_116 h σ) (colK ν)))
    w2t (shapeCast Cert.KernelIdeal.S1x1 b2 shapeCasts_S1_S1x1)

open Cert.ReferenceIdeal Cert.ReferenceIdeal.Facts₀ in
/-- The reference's first layer: project, gather and weigh per edge, aggregate, add the bias, rectify. -/
def rLayer1 (σ δ : IVec SE1 32) (ν : FVec Ideal SE .f32) (x0c : FVec Ideal SN1 .f32) (w1t : FVec Ideal S1x16 .f32)
    (b1 : FVec Ideal Cert.ReferenceIdeal.S16 .f32) : FVec Ideal SN16 .f32 :=
  maximumf
    (addf
      (Host.scatterAdd scatter_S200000x16_S5200000x1_S5200000x16_1_0_0_1
        (broadcastInDim S200000x16 ![] bcast_S_S200000x16 (constant S_ .f32 0x00000000#32)) δ
        (mulf (Host.gather gather_S200000x16_S5200000x1_S5200000x16_1_0_n_n_0_1_116
                (Host.dotGeneral dot_S200000x1_S1x16_S200000x16_1_0_0_1_n_n none x0c w1t) σ)
          (broadcastInDim S5200000x16 ![0, 1] bcast_S5200000x1_S5200000x16_0_1
            (broadcastInDim S5200000x1 ![0] bcast_S5200000_S5200000x1_0 ν))))
      (broadcastInDim S200000x16 ![0, 1] bcast_S1x16_S200000x16_0_1 (broadcastInDim S1x16 ![1] bcast_S16_S1x16_1 b1)))
    (broadcastInDim S200000x16 ![] bcast_S_S200000x16 (constant S_ .f32 0x00000000#32))

open Cert.ReferenceIdeal Cert.ReferenceIdeal.Facts₀ in
/-- The reference's second layer: project, gather and weigh per edge, aggregate, add the bias. -/
def rLayer2 (σ δ : IVec SE1 32) (ν : FVec Ideal SE .f32) (h : FVec Ideal SN16 .f32) (w2t : FVec Ideal S16x1 .f32)
    (b2 : FVec Ideal Cert.ReferenceIdeal.S1 .f32) : FVec Ideal SN1 .f32 :=
  addf
    (Host.scatterAdd scatter_S200000x1_S5200000x1_S5200000x1_1_0_0_1
      (broadcastInDim S200000x1 ![] bcast_S_S200000x1 (constant S_ .f32 0x00000000#32)) δ
      (mulf (Host.gather gather_S200000x1_S5200000x1_S5200000x1_1_0_n_n_0_1_11
              (Host.dotGeneral dot_S200000x16_S16x1_S200000x1_1_0_0_1_n_n none h w2t) σ)
        (broadcastInDim S5200000x1 ![0] bcast_S5200000_S5200000x1_0 ν)))
    (broadcastInDim S200000x1 ![0, 1] bcast_S1x1_S200000x1_0_1 (broadcastInDim S1x1 ![1] bcast_S1_S1x1_1 b2))

open Cert.KernelIdeal Cert.KernelIdeal.Facts₀ in
/-- The in-degree of every node counted over the edge list: a scatter-add of ones. -/
def degOf (δ : IVec SE1 32) : FVec Ideal Cert.KernelIdeal.S200000 .f32 :=
  Host.scatterAdd scatter_S200000_S5200000x1_S5200000_n_0_0_1
    (broadcastInDim S200000 ![] bcast_S_S200000 (constant S_ .f32 0x00000000#32)) δ
    (broadcastInDim S5200000 ![] bcast_S_S5200000 (constant S_ .f32 0x3F800000#32))

open Cert.KernelIdeal Cert.KernelIdeal.Facts₀ in
/-- `deg^(-1/2)` where the degree is positive, `0` elsewhere. -/
def dinvOf (deg : FVec Ideal Cert.KernelIdeal.S200000 .f32) : FVec Ideal Cert.KernelIdeal.S200000 .f32 :=
  select (cmpf .ogt deg (broadcastInDim S200000 ![] bcast_S_S200000 (constant S_ .f32 0x00000000#32)))
    (Host.rsqrt deg)
    (broadcastInDim S200000 ![] bcast_S_S200000 (id (constant S_ .f32 0x00000000#32)))

open Cert.KernelIdeal Cert.KernelIdeal.Facts₀ in
/-- The edge weight: the normaliser at the edge's wrapped source times the normaliser at its wrapped target. -/
def normOf (dinv : FVec Ideal Cert.KernelIdeal.S200000 .f32) (a b : IVec SE1 32) : FVec Ideal SE .f32 :=
  mulf (Host.gather gather_S200000_S5200000x1_S5200000_n_0_n_n_0_1_1 dinv a)
    (Host.gather gather_S200000_S5200000x1_S5200000_n_0_n_n_0_1_1 dinv b)

end Layers

end Cert.GCN

end
-- ==== Proof.Graph.lean ====
/-
  The edge list's index columns and weights as functions of the edge-index argument: the given edges followed by one
  self loop per node; a source or target row below zero is wrapped by the number of nodes before it is gathered.
-/
import proofs.«127427_j39908836114582_1_alg».proof.Proof.Spec

noncomputable section

namespace Cert.GCN

open Idealize.ShloMosaic Idealize.ShloMosaic.ValueIdx

variable [Cert.KernelIdeal.Facts]

open Cert.KernelIdeal in
/-- Row `r` (0: sources, 1: targets) of the edge-index argument, followed by the self loops `0, 1, …, 199999`. -/
def rowsOf (r : Fin 2) (h : Cert.KernelIdeal.S2x5000000.Slices ![r.val, 0] Cert.KernelIdeal.S1x5000000) (x5 : IVec Cert.KernelIdeal.S2x5000000 32) : IVec Cert.KernelIdeal.S5200000 32 :=
  concatenate S5200000 0 [⟨S5000000, shapeCast S5000000 (extractStridedSlice S1x5000000 ![r.val, 0] x5 h)
    Facts₀.shapeCasts_S1x5000000_S5000000⟩, ⟨S200000, iotaInDim S200000 32 0⟩] Facts₀.concatenates_S5000000_S200000_S5200000_d0

open Cert.KernelIdeal in
/-- The sources, with the self loops. -/
def srcOf (x5 : IVec Cert.KernelIdeal.S2x5000000 32) : IVec Cert.KernelIdeal.S5200000 32 :=
  rowsOf 0 Facts₀.slices_S2x5000000_S1x5000000_0_0 x5
open Cert.KernelIdeal in
/-- The targets, with the self loops. -/
def dstOf (x5 : IVec Cert.KernelIdeal.S2x5000000 32) : IVec Cert.KernelIdeal.S5200000 32 :=
  rowsOf 1 Facts₀.slices_S2x5000000_S1x5000000_1_0 x5

open Cert.KernelIdeal in
/-- An index vector as the one-column index array a gather or a scatter takes. -/
def rawCol (v : IVec Cert.KernelIdeal.S5200000 32) : IVec SE1 32 :=
  broadcastInDim S5200000x1 ![0] Facts₀.bcast_S5200000_S5200000x1_0 v

open Cert.KernelIdeal in
/-- The same with negative rows wrapped by 200000 first (indexing from the end). -/
def wrapCol (v : IVec Cert.KernelIdeal.S5200000 32) : IVec SE1 32 :=
  rawCol (select (cmpi .slt v (broadcastInDim S5200000 ![] Facts₀.bcast_S_S5200000 (constantI S_ 32 0#32)))
    (addi v (broadcastInDim S5200000 ![] Facts₀.bcast_S_S5200000 (constantI S_ 32 200000#32))) v)

/-- The edge weights of the symmetric normalisation, from the edge-index argument. -/
def normV (x5 : IVec Cert.KernelIdeal.S2x5000000 32) : FVec Ideal SE .f32 :=
  normOf (dinvOf (degOf (rawCol (dstOf x5)))) (wrapCol (srcOf x5)) (wrapCol (dstOf x5))

end Cert.GCN

end
-- ==== Proof.RefChain.lean ====
/-
  The reference program's result, stage by stage, is the reference spelling of the two layers over the edge list's
  columns and weights.
-/
import proofs.«127427_j39908836114582_1_alg».proof.Proof.RefRead
import proofs.«127427_j39908836114582_1_alg».proof.Proof.Graph
import proofs.«127427_j39908836114582_1_alg».proof.Proof.Gen.KernelIdeal

set_option maxRecDepth 16384

noncomputable section

namespace Cert.GCN

open Idealize.ShloMosaic Idealize.ShloMosaic.ValueIdx
open Cert.ReferenceIdeal.ReadP

abbrev X5 := IVec Cert.KernelIdeal.S2x5000000 32

/-- The wrapped sources of both convolutions are one column. -/
theorem ref_src (x5 : X5) : val_main_v38 (F := Ideal) x5 = wrapCol (srcOf x5) := rfl
theorem ref_src' (x5 : X5) : val_main_v83 (F := Ideal) x5 = wrapCol (srcOf x5) := rfl
/-- The raw targets of both convolutions are one column. -/
theorem ref_dst (x5 : X5) : val_main_v44 (F := Ideal) x5 = rawCol (dstOf x5) := rfl
theorem ref_dst' (x5 : X5) : val_main_v88 (F := Ideal) x5 = rawCol (dstOf x5) := rfl
/-- The edge weights of both convolutions are one vector. -/
theorem ref_norm (x5 : X5) : val_main_v30 (F := Ideal) x5 = normV x5 := rfl
theorem ref_norm' (x5 : X5) : val_main_v75 (F := Ideal) x5 = normV x5 := rfl

/-- The rectified first convolution is the reference's first layer. -/
theorem ref_layer1 (x0 : FVec Ideal Cert.KernelIdeal.S200000x4 .f32) (x1 : FVec Ideal Cert.KernelIdeal.S16x1 .f32)
    (x2 : FVec Ideal Cert.KernelIdeal.S16 .f32) (x5 : X5) :
    val_main_v49 (F := Ideal) x0 x1 x2 x5
      = rLayer1 (val_main_v38 (F := Ideal) x5) (val_main_v44 (F := Ideal) x5) (val_main_v30 (F := Ideal) x5)
          (val_main_v4 (F := Ideal) x0) (val_main_v31 (F := Ideal) x1) x2 := rfl

/-- The result is the reference's second layer of the first layer's output. -/
theorem ref_layer2 (x0 : FVec Ideal Cert.KernelIdeal.S200000x4 .f32) (x1 : FVec Ideal Cert.KernelIdeal.S16x1 .f32)
    (x2 : FVec Ideal Cert.KernelIdeal.S16 .f32) (x3 : FVec Ideal Cert.KernelIdeal.S1x16 .f32)
    (x4 : FVec Ideal Cert.KernelIdeal.S1 .f32) (x5 : X5) :
    val_main_v92 (F := Ideal) x0 x1 x2 x3 x4 x5
      = rLayer2 (val_main_v83 (F := Ideal) x5) (val_main_v88 (F := Ideal) x5) (val_main_v75 (F := Ideal) x5)
          (val_main_v49 (F := Ideal) x0 x1 x2 x5) (val_main_v76 (F := Ideal) x3) x4 := rfl

end Cert.GCN

end
-- ==== Proof.Region0.lean ====
/-
  Region 0 of the kernel program, as a whole-array function of the arrays it is entered with.
-/
import proofs.«127427_j39908836114582_1_alg».proof.Proof.Gen.KernelIdeal.Frame
import proofs.«127427_j39908836114582_1_alg».proof.Proof.Spec
import Idealize.ShloMosaic.Lib.Pipeline.Value
import Idealize.ShloMosaic.Lib.ValueIdx
import Idealize.ShloMosaic.Lib.ValueLayout

noncomputable section

namespace Cert.GCN.Region0

open Idealize.ShloMosaic Idealize.ShloMosaic.ValueIdx Idealize.ShloMosaic.TcCoe Idealize.SL.Sem
open Cert.KernelIdeal Cert.KernelIdeal.Gen Cert.GCN

variable (V : (c : Dev nD) → (b : Ref sig .tc) → Buf (Elt Ideal) ((c : Thread nD τ).loc b))

/-- The offsets of a whole-buffer access are zero on every axis. -/
private theorem zero_off : (![0, 0] : Fin 2 → Nat) = fun _ => 0 := funext fun a => by fin_cases a <;> rfl

/-- The body's payload is the entrywise product of its two loaded blocks. -/
private theorem pay_eq (x0 x1 : Vec Ideal S10400x1 .f32) : k0_pay1 x0 x1 = fun j => x0 j * x1 j := by
  unfold k0_pay1
  rw [shapeCast_self, shapeCast_self]
  rfl

/-- The printed index maps over the grid: at point `t` every window is on block row `t`, block column `0`. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- At a point the two input blocks sit where the output block sits, so the product of the input blocks' entries
    is the product array's entry under the output block. -/
private theorem blocks_scale (g nc : FVec Ideal SE1 .f32) (t : Fin cfg0.N) (j : S10400x1.Idx) :
    g (((cfg0.win 0).blk t).view.emb j) * nc (((cfg0.win 1).blk t).view.emb j)
      = scale1 g nc (((cfg0.win 2).blk t).view.emb j) := by
  obtain ⟨e0, e1, e2, e3, e4, e5⟩ := idx_facts t
  have h0 : ((cfg0.win 0).blk t).view.emb j = ((cfg0.win 2).blk t).view.emb j := by
    funext a; apply Fin.ext
    match a with
    | ⟨0, _⟩ => show win0_0.index t (0 : Fin 2) * 10400 + 1 * (j 0).val = win0_2.index t (0 : Fin 2) * 10400 + 1 * (j 0).val; omega
    | ⟨1, _⟩ => show win0_0.index t (1 : Fin 2) * 1 + 1 * (j 1).val = win0_2.index t (1 : Fin 2) * 1 + 1 * (j 1).val; omega
  have h1 : ((cfg0.win 1).blk t).view.emb j = ((cfg0.win 2).blk t).view.emb j := by
    funext a; apply Fin.ext
    match a with
    | ⟨0, _⟩ => show win0_1.index t (0 : Fin 2) * 10400 + 1 * (j 0).val = win0_2.index t (0 : Fin 2) * 10400 + 1 * (j 0).val; omega
    | ⟨1, _⟩ => show win0_1.index t (1 : Fin 2) * 1 + 1 * (j 1).val = win0_2.index t (1 : Fin 2) * 1 + 1 * (j 1).val; omega
  rw [h0, h1]; rfl

/-- What point `t` writes back is block `t` of the entrywise product of the two entry arrays. -/
private theorem flushed_eq (c : Dev nD) (t : Fin cfg0.N) :
    (dat0 (F := Ideal) V c).flushed 2 t
      = ((cfg0.win 2).blk t).view.read (Elt Ideal) (scale1 (V c main_v38) (V c main_v30)) := by
  show (cfg0.win 2).cut (grid0.coords t) ((dat0 (F := Ideal) V c).after 2 t) = _
  rw [after0_2]
  unfold out0_2
  rw [View.canon_unit_zero zero_off]
  simp only [View.ld_unit_zero (S := S10400x1) zero_off]
  rw [pay_eq]
  funext j
  exact blocks_scale (V c main_v38) (V c main_v30) t j

/-- An index of the output array is in point `t`'s block iff each coordinate is in the block's range on its axis. -/
private theorem mem_blk (t : Fin cfg0.N) (i : S5200000x1.Idx) :
    i ∈ ((cfg0.win 2).blk t).view.set ↔ ∀ a : Fin 2, win0_2.index t a * S10400x1.size a ≤ (i a).val
      ∧ (i a).val < win0_2.index t a * S10400x1.size a + S10400x1.size a := by
  show i ∈ ((View.whole main_v39).slice (win0_2.rect t)).set ↔ _
  rw [View.set_slice_whole, Rect.mem_set_unit]
  exact Iff.rfl

/-- Row `r` of the output array is in the block of point `r / 10400`: the 500 blocks of 10400 rows tile the array. -/
private theorem cover (i : S5200000x1.Idx) :
    ∃ t : Fin cfg0.N, (cfg0.win 2).flush t = true ∧ i ∈ ((cfg0.win 2).blk t).view.set := by
  have hi0 : (i 0).val < 5200000 := (i 0).isLt
  have hi1 : (i 1).val < 1 := (i 1).isLt
  have ht : (i 0).val / 10400 < 500 := by omega
  obtain ⟨-, -, -, -, e4, e5⟩ := idx_facts ⟨(i 0).val / 10400, ht⟩
  refine ⟨⟨(i 0).val / 10400, ht⟩, flush0_2 _, ?_⟩
  rw [mem_blk]
  intro a
  match a with
  | ⟨0, _⟩ =>
    show win0_2.index ⟨(i 0).val / 10400, ht⟩ (0 : Fin 2) * 10400 ≤ (i 0).val
      ∧ (i 0).val < win0_2.index ⟨(i 0).val / 10400, ht⟩ (0 : Fin 2) * 10400 + 10400
    rw [e4]; show (i 0).val / 10400 * 10400 ≤ (i 0).val ∧ (i 0).val < (i 0).val / 10400 * 10400 + 10400; omega
  | ⟨1, _⟩ =>
    show win0_2.index ⟨(i 0).val / 10400, ht⟩ (1 : Fin 2) * 1 ≤ (i 1).val
      ∧ (i 1).val < win0_2.index ⟨(i 0).val / 10400, ht⟩ (1 : Fin 2) * 1 + 1
    rw [e5]; omega

/-- After region 0 its output array is the gathered width-1 features times the weight column, entry by entry. -/
theorem value (c : Dev nD) :
    (dat0 (F := Ideal) V c).arrAt 2 cfg0.N = scale1 (V c main_v38) (V c main_v30) :=
  (dat0 (F := Ideal) V c).arrAt_eq_of_cover 2 (scale1 (V c main_v38) (V c main_v30))
    (fun t _ => flushed_eq V c t) cover

end Cert.GCN.Region0

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Region1.lean ====
/-
  Region 1 of the kernel program, as a whole-array function of the arrays it is entered with.
-/
import proofs.«127427_j39908836114582_1_alg».proof.Proof.Gen.KernelIdeal.Frame
import proofs.«127427_j39908836114582_1_alg».proof.Proof.Spec
import proofs.«127427_j39908836114582_1_alg».proof.Proof.LibDot2
import Idealize.ShloMosaic.Lib.Pipeline.Value
import Idealize.ShloMosaic.Lib.ValueIdx
import Idealize.ShloMosaic.Lib.ValueLayout

noncomputable section

namespace Cert.GCN.Region1

open Idealize.ShloMosaic Idealize.ShloMosaic.ValueIdx Idealize.ShloMosaic.TcCoe Idealize.SL.Sem
open Cert.KernelIdeal Cert.KernelIdeal.Gen Cert.GCN

/-! ## The product's dimension numbers: which coordinate of each operand is the output's, which the contracted one -/

theorem contr_rank : dot_S10000x1_S1x16_S10000x16_1_0_0_1_n_n.contr.rank = 1 := rfl
theorem contr_size : dot_S10000x1_S1x16_S10000x16_1_0_0_1_n_n.contr.size ⟨0, by decide⟩ = 1 := rfl

theorem lhs_0 (i : S10000x16.Idx) (q : dot_S10000x1_S1x16_S10000x16_1_0_0_1_n_n.contr.Idx) :
    (dot_S10000x1_S1x16_S10000x16_1_0_0_1_n_n.lhsIdx i q 0).val = (i 0).val := by
  unfold DotDims.lhsIdx
  rw [dif_neg (show ¬(0 : Fin S10000x1.rank) ∈ dot_S10000x1_S1x16_S10000x16_1_0_0_1_n_n.lhsBatch by decide), dif_pos (show (0 : Fin S10000x1.rank) ∈ dot_S10000x1_S1x16_S10000x16_1_0_0_1_n_n.lhsNonContracting by decide)]
  rfl
theorem lhs_1 (i : S10000x16.Idx) (q : dot_S10000x1_S1x16_S10000x16_1_0_0_1_n_n.contr.Idx) :
    (dot_S10000x1_S1x16_S10000x16_1_0_0_1_n_n.lhsIdx i q 1).val = (q ⟨0, by decide⟩).val :=
  dot_S10000x1_S1x16_S10000x16_1_0_0_1_n_n.lhsIdx_val_of_single rfl i q
theorem rhs_0 (i : S10000x16.Idx) (q : dot_S10000x1_S1x16_S10000x16_1_0_0_1_n_n.contr.Idx) :
    (dot_S10000x1_S1x16_S10000x16_1_0_0_1_n_n.rhsIdx i q 0).val = (q ⟨0, by decide⟩).val :=
  dot_S10000x1_S1x16_S10000x16_1_0_0_1_n_n.rhsIdx_val_of_single rfl i q
theorem rhs_1 (i : S10000x16.Idx) (q : dot_S10000x1_S1x16_S10000x16_1_0_0_1_n_n.contr.Idx) :
    (dot_S10000x1_S1x16_S10000x16_1_0_0_1_n_n.rhsIdx i q 1).val = (i 1).val := by
  unfold DotDims.rhsIdx
  rw [dif_neg (show ¬(1 : Fin S1x16.rank) ∈ dot_S10000x1_S1x16_S10000x16_1_0_0_1_n_n.rhsBatch by decide), dif_pos (show (1 : Fin S1x16.rank) ∈ dot_S10000x1_S1x16_S10000x16_1_0_0_1_n_n.rhsNonContracting by decide)]
  rfl

/-! ## The body's payload at an entry -/

/-- Row `p`, column `j` of what the body stores: the one-term product of the block's row with the weight's column,
    plus the bias at the column, rectified. -/
theorem pay_apply (x0 : Vec Ideal S10000x1 .f32) (x1 x2 : Vec Ideal Cert.KernelIdeal.S1x16 .f32) (p : Fin 10000) (j : Fin 16) :
    k1_pay1 (F := Ideal) x0 x1 x2 (ix2 p j)
      = max ((∑ a : Fin 1, x0 (ix2 p a) * x1 (ix2 a j)) + x2 (ix2 (0 : Fin 1) j)) zeroI := by
  unfold k1_pay1
  rw [maximumf_apply, addf_apply, broadcast_apply]
  simp only [shapeCast_self]
  rw [Cert.Lib.Dot2.matmul_zero_ix2 dot_S10000x1_S1x16_S10000x16_1_0_0_1_n_n none contr_rank contr_size lhs_0 lhs_1 rhs_0 rhs_1,
    broadcastTo_1b_ab_apply]
  rfl

/-! ## One grid point's block of the output -/

/-- What a point's body stores, entry by entry, when its first input is rows `r … r + 9999` of `z` and the other two
    are the whole weight and bias: the projection, bias and rectifier of `z` at row `r + p`. -/
theorem point_eq (z : FVec Ideal SN1 .f32) (wt b : FVec Ideal S1x16 .f32)
    (x0 : Vec Ideal S10000x1 .f32) (x1 x2 : Vec Ideal Cert.KernelIdeal.S1x16 .f32) (r : ℕ)
    (h0 : ∀ (x : S10000x1.Idx) (k : SN1.Idx), (k 0).val = r + (x 0).val → (k 1).val = (x 1).val → x0 x = z k)
    (h1 : ∀ x : Cert.KernelIdeal.S1x16.Idx, x1 x = wt x) (h2 : ∀ x : Cert.KernelIdeal.S1x16.Idx, x2 x = b x)
    (y : S10000x16.Idx) (k : SN16.Idx) (hk0 : (k 0).val = r + (y 0).val) (hk1 : (k 1).val = (y 1).val) :
    k1_pay1 (F := Ideal) x0 x1 x2 y = dense1 z wt b k := by
  obtain ⟨p, j, rfl⟩ : ∃ (p : Fin 10000) (j : Fin 16), y = ix2 p j := ⟨y 0, y 1, eq_ix2 y⟩
  obtain ⟨n, f, rfl⟩ : ∃ (n : Fin 200000) (f : Fin 16), k = ix2 n f := ⟨k 0, k 1, eq_ix2 k⟩
  obtain rfl : f = j := Fin.ext hk1
  rw [pay_apply]
  show _ = max ((∑ a : Fin 1, z (ix2 n a) * wt (ix2 a f)) + b (ix2 (0 : Fin 1) f)) zeroI
  rw [h2]
  congr 2
  refine Finset.sum_congr rfl fun a _ => ?_
  rw [h1, h0 (ix2 p a) (ix2 n a) hk0 rfl]

variable (V : (c : Dev nD) → (b : Ref sig .tc) → Buf (Elt Ideal) ((c : Thread nD τ).loc b))

/-! ## The blocks' places in their arrays -/

theorem hz : (![0, 0] : Fin 2 → Nat) = fun _ => 0 := funext fun a => by fin_cases a <;> rfl

/-- The index maps over the grid: point `t` reads and writes row block `t`; the weight and the bias have one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first input's block at point `t` is rows `10000 t … 10000 t + 9999` of its array. -/
theorem iblk0_apply (c : Dev nD) (t : Fin cfg1.N) (x : S10000x1.Idx) (k : SN1.Idx)
    (hk0 : (k 0).val = 10000 * t.val + (x 0).val) (hk1 : (k 1).val = (x 1).val) :
    (iblk1 V c 0 t : Vec Ideal S10000x1 .f32) x = (V c main_v42 : SN1.Idx → Elt Ideal .f32) k := by
  obtain ⟨e0, e1, -⟩ := idx_facts t
  unfold iblk1
  rw [View.read_apply]
  show V c main_v42 _ = V c main_v42 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 1 + 1 * (x 1).val = (k 1).val; rw [e1, hk1]; omega

/-- The weight's block at every point is the whole weight. -/
theorem iblk1_apply (c : Dev nD) (t : Fin cfg1.N) (x : Cert.KernelIdeal.S1x16.Idx) :
    (iblk1 V c 1 t : Vec Ideal Cert.KernelIdeal.S1x16 .f32) x = (V c main_v43 : S1x16.Idx → Elt Ideal .f32) x := by
  obtain ⟨-, -, e0, e1, -⟩ := idx_facts t
  unfold iblk1
  rw [View.read_apply]
  show V c main_v43 _ = V c main_v43 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 16 + 1 * (x 1).val = (x 1).val; rw [e1]; omega

/-- The bias's block at every point is the whole bias. -/
theorem iblk2_apply (c : Dev nD) (t : Fin cfg1.N) (x : Cert.KernelIdeal.S1x16.Idx) :
    (iblk1 V c 2 t : Vec Ideal Cert.KernelIdeal.S1x16 .f32) x = (V c main_v44 : S1x16.Idx → Elt Ideal .f32) x := by
  obtain ⟨-, -, -, -, e0, e1, -⟩ := idx_facts t
  unfold iblk1
  rw [View.read_apply]
  show V c main_v44 _ = V c main_v44 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 16 + 1 * (x 1).val = (x 1).val; rw [e1]; omega

/-- What point `t` writes back is block `t` of the whole-array function of the entry arrays. -/
theorem flushed_eq (c : Dev nD) (t : Fin cfg1.N) :
    (dat1 (F := Ideal) V c).flushed 3 t
      = ((cfg1.win 3).blk t).view.read (Elt Ideal) (dense1 (V c main_v42) (V c main_v43) (V c main_v44)) := by
  show (cfg1.win 3).cut (grid1.coords t) ((dat1 V c).after 3 t) = _
  rw [after1_3]
  unfold out1_3
  rw [View.canon_unit_zero hz]
  simp only [View.ld_unit_zero (S := S10000x1) hz, View.ld_unit_zero (S := Cert.KernelIdeal.S1x16) hz]
  obtain ⟨-, -, -, -, -, -, e0, e1⟩ := idx_facts t
  funext y
  rw [View.read_apply]
  refine point_eq (V c main_v42) (V c main_v43) (V c main_v44) _ _ _ (10000 * t.val)
    (fun x k h0 h1 => iblk0_apply V c t x k h0 h1) (iblk1_apply V c t) (iblk2_apply V c t) y _ ?_ ?_
  · show win1_3.index t (0 : Fin 2) * 10000 + 1 * (y 0).val = 10000 * t.val + (y 0).val; rw [e0]; omega
  · show win1_3.index t (1 : Fin 2) * 16 + 1 * (y 1).val = (y 1).val; rw [e1]; omega

/-! ## The blocks cover the array -/

/-- An index of the output array is in point `t`'s block iff each coordinate is in the block's range on its axis. -/
theorem mem_blk (t : Fin cfg1.N) (i : S200000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v45).slice (win1_3.rect t)).set ↔ _
  rw [View.set_slice_whole, Rect.mem_set_unit]
  exact Iff.rfl

/-- Row `r` of the output is written back by point `r / 10000`. -/
theorem cover (i : S200000x16.Idx) :
    ∃ t : Fin cfg1.N, (cfg1.win 3).flush t = true ∧ i ∈ ((cfg1.win 3).blk t).view.set := by
  have hi0 : (i 0).val < 200000 := (i 0).isLt
  have hi1 : (i 1).val < 16 := (i 1).isLt
  have hN : grid1.N = 20 := N_1
  have ht : (i 0).val / 10000 < grid1.N := by rw [hN]; omega
  refine ⟨⟨(i 0).val / 10000, ht⟩, flush1_3 _, ?_⟩
  rw [mem_blk]
  obtain ⟨-, -, -, -, -, -, e0, e1⟩ := idx_facts ⟨(i 0).val / 10000, ht⟩
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_3.index ⟨(i 0).val / 10000, ht⟩ (1 : Fin 2) * 16 ≤ (i 1).val ∧ (i 1).val < win1_3.index ⟨(i 0).val / 10000, ht⟩ (1 : Fin 2) * 16 + 16
    rw [e1]
    omega

/-- After region 1 its output array is the rectified projection of the aggregated width-1 features. -/
theorem value (c : Dev nD) :
    (dat1 (F := Ideal) V c).arrAt 3 cfg1.N = dense1 (V c main_v42) (V c main_v43) (V c main_v44) :=
  (dat1 (F := Ideal) V c).arrAt_eq_of_cover 3 (dense1 (V c main_v42) (V c main_v43) (V c main_v44))
    (fun t _ => flushed_eq V c t) cover

end Cert.GCN.Region1

end
-- ==== Proof.Region2.lean ====
/-
  Region 2 of the kernel program, as a whole-array function of the arrays it is entered with.
-/
import proofs.«127427_j39908836114582_1_alg».proof.Proof.Gen.KernelIdeal.Frame
import proofs.«127427_j39908836114582_1_alg».proof.Proof.Spec
import Idealize.ShloMosaic.Lib.Pipeline.Value
import Idealize.ShloMosaic.Lib.ValueIdx
import Idealize.ShloMosaic.Lib.ValueLayout

noncomputable section

namespace Cert.GCN.Region2

open Idealize.ShloMosaic Idealize.ShloMosaic.ValueIdx Idealize.ShloMosaic.TcCoe Idealize.SL.Sem
open Cert.KernelIdeal Cert.KernelIdeal.Gen Cert.GCN

variable (V : (c : Dev nD) → (b : Ref sig .tc) → Buf (Elt Ideal) ((c : Thread nD τ).loc b))

/-- The offsets of a whole-buffer access are zero on every axis. -/
private theorem zero_off : (![0, 0] : Fin 2 → Nat) = fun _ => 0 := funext fun a => by fin_cases a <;> rfl

/-- The body's payload multiplies every column of a row of the first block by that row's entry of the column
    block (the column block is broadcast along the columns). -/
private theorem pay_eq (x0 : Vec Ideal S10400x16 .f32) (x1 : Vec Ideal S10400x1 .f32) :
    k2_pay1 x0 x1 = fun j => x0 j * x1 (ix2 (j 0) 0) := by
  unfold k2_pay1
  rw [shapeCast_self, shapeCast_self]
  funext j
  rw [mulf_apply, broadcastTo_apply x1 broadcasts_S10400x1_S10400x16 j (ix2 (j 0) 0) (by
    intro a
    match a with
    | ⟨0, _⟩ => rfl
    | ⟨1, _⟩ => rfl)]

/-- The printed index maps over the grid: at point `t` every window is on block row `t`, block column `0`. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- At a point the first input block sits where the output block sits and the column block sits on the same rows,
    so the product of a row's entry with its row's column entry is the scaled array's entry under the output
    block. -/
private theorem blocks_scale (g : FVec Ideal SE16 .f32) (nc : FVec Ideal SE1 .f32) (t : Fin cfg2.N)
    (j : S10400x16.Idx) :
    g (((cfg2.win 0).blk t).view.emb j) * nc (((cfg2.win 1).blk t).view.emb (ix2 (j 0) 0))
      = scale16 g nc (((cfg2.win 2).blk t).view.emb j) := by
  obtain ⟨e0, e1, e2, e3, e4, e5⟩ := idx_facts t
  have h0 : ((cfg2.win 0).blk t).view.emb j = ((cfg2.win 2).blk t).view.emb j := by
    funext a; apply Fin.ext
    match a with
    | ⟨0, _⟩ => show win2_0.index t (0 : Fin 2) * 10400 + 1 * (j 0).val = win2_2.index t (0 : Fin 2) * 10400 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb (ix2 (j 0) 0)
      = (ix2 ((((cfg2.win 2).blk t).view.emb j : S5200000x16.Idx) 0) 0 : S5200000x1.Idx) := by
    funext a; apply Fin.ext
    match a with
    | ⟨0, _⟩ => show win2_1.index t (0 : Fin 2) * 10400 + 1 * (j 0).val = win2_2.index t (0 : Fin 2) * 10400 + 1 * (j 0).val; omega
    | ⟨1, _⟩ => show win2_1.index t (1 : Fin 2) * 1 + 1 * 0 = 0; omega
  rw [h0, h1]; rfl

/-- What point `t` writes back is block `t` of the row-scaled entry array. -/
private theorem flushed_eq (c : Dev nD) (t : Fin cfg2.N) :
    (dat2 (F := Ideal) V c).flushed 2 t
      = ((cfg2.win 2).blk t).view.read (Elt Ideal) (scale16 (V c main_v52) (V c main_v30)) := by
  show (cfg2.win 2).cut (grid2.coords t) ((dat2 (F := Ideal) V c).after 2 t) = _
  rw [after2_2]
  unfold out2_2
  rw [View.canon_unit_zero zero_off]
  simp only [View.ld_unit_zero (S := S10400x16) zero_off, View.ld_unit_zero (S := S10400x1) zero_off]
  rw [pay_eq]
  funext j
  exact blocks_scale (V c main_v52) (V c main_v30) t j

/-- An index of the output array is in point `t`'s block iff each coordinate is in the block's range on its axis. -/
private theorem mem_blk (t : Fin cfg2.N) (i : S5200000x16.Idx) :
    i ∈ ((cfg2.win 2).blk t).view.set ↔ ∀ a : Fin 2, win2_2.index t a * S10400x16.size a ≤ (i a).val
      ∧ (i a).val < win2_2.index t a * S10400x16.size a + S10400x16.size a := by
  show i ∈ ((View.whole main_v53).slice (win2_2.rect t)).set ↔ _
  rw [View.set_slice_whole, Rect.mem_set_unit]
  exact Iff.rfl

/-- Row `r` of the output array is in the block of point `r / 10400`, whatever the column: the 500 blocks of
    10400 full rows tile the array. -/
private theorem cover (i : S5200000x16.Idx) :
    ∃ t : Fin cfg2.N, (cfg2.win 2).flush t = true ∧ i ∈ ((cfg2.win 2).blk t).view.set := by
  have hi0 : (i 0).val < 5200000 := (i 0).isLt
  have hi1 : (i 1).val < 16 := (i 1).isLt
  have ht : (i 0).val / 10400 < 500 := by omega
  obtain ⟨-, -, -, -, e4, e5⟩ := idx_facts ⟨(i 0).val / 10400, ht⟩
  refine ⟨⟨(i 0).val / 10400, ht⟩, flush2_2 _, ?_⟩
  rw [mem_blk]
  intro a
  match a with
  | ⟨0, _⟩ =>
    show win2_2.index ⟨(i 0).val / 10400, ht⟩ (0 : Fin 2) * 10400 ≤ (i 0).val
      ∧ (i 0).val < win2_2.index ⟨(i 0).val / 10400, ht⟩ (0 : Fin 2) * 10400 + 10400
    rw [e4]; show (i 0).val / 10400 * 10400 ≤ (i 0).val ∧ (i 0).val < (i 0).val / 10400 * 10400 + 10400; omega
  | ⟨1, _⟩ =>
    show win2_2.index ⟨(i 0).val / 10400, ht⟩ (1 : Fin 2) * 16 ≤ (i 1).val
      ∧ (i 1).val < win2_2.index ⟨(i 0).val / 10400, ht⟩ (1 : Fin 2) * 16 + 16
    rw [e5]; omega

/-- After region 2 its output array is each gathered width-16 row times its edge's weight. -/
theorem value (c : Dev nD) :
    (dat2 (F := Ideal) V c).arrAt 2 cfg2.N = scale16 (V c main_v52) (V c main_v30) :=
  (dat2 (F := Ideal) V c).arrAt_eq_of_cover 2 (scale16 (V c main_v52) (V c main_v30))
    (fun t _ => flushed_eq V c t) cover

end Cert.GCN.Region2

end
-- ==== Proof.Region3.lean ====
/-
  Region 3 of the kernel program, as a whole-array function of the arrays it is entered with.
-/
import proofs.«127427_j39908836114582_1_alg».proof.Proof.Gen.KernelIdeal.Frame
import proofs.«127427_j39908836114582_1_alg».proof.Proof.Spec
import proofs.«127427_j39908836114582_1_alg».proof.Proof.LibDot2
import Idealize.ShloMosaic.Lib.Pipeline.Value
import Idealize.ShloMosaic.Lib.ValueIdx
import Idealize.ShloMosaic.Lib.ValueLayout

noncomputable section

namespace Cert.GCN.Region3

open Idealize.ShloMosaic Idealize.ShloMosaic.ValueIdx Idealize.ShloMosaic.TcCoe Idealize.SL.Sem
open Cert.KernelIdeal Cert.KernelIdeal.Gen Cert.GCN

/-! ## The product's dimension numbers: which coordinate of each operand is the output's, which the contracted one -/

theorem contr_rank : dot_S10000x16_S16x1_S10000x1_1_0_0_1_n_n.contr.rank = 1 := rfl
theorem contr_size : dot_S10000x16_S16x1_S10000x1_1_0_0_1_n_n.contr.size ⟨0, by decide⟩ = 16 := rfl

theorem lhs_0 (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem lhs_1 (i : S10000x1.Idx) (q : dot_S10000x16_S16x1_S10000x1_1_0_0_1_n_n.contr.Idx) :
    (dot_S10000x16_S16x1_S10000x1_1_0_0_1_n_n.lhsIdx i q 1).val = (q ⟨0, by decide⟩).val :=
  dot_S10000x16_S16x1_S10000x1_1_0_0_1_n_n.lhsIdx_val_of_single rfl i q
theorem rhs_0 (i : S10000x1.Idx) (q : dot_S10000x16_S16x1_S10000x1_1_0_0_1_n_n.contr.Idx) :
    (dot_S10000x16_S16x1_S10000x1_1_0_0_1_n_n.rhsIdx i q 0).val = (q ⟨0, by decide⟩).val :=
  dot_S10000x16_S16x1_S10000x1_1_0_0_1_n_n.rhsIdx_val_of_single rfl i q
theorem rhs_1 (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin Cert.KernelIdeal.S16x1.rank) ∈ dot_S10000x16_S16x1_S10000x1_1_0_0_1_n_n.rhsBatch by decide), dif_pos (show (1 : Fin Cert.KernelIdeal.S16x1.rank) ∈ dot_S10000x16_S16x1_S10000x1_1_0_0_1_n_n.rhsNonContracting by decide)]
  rfl

/-! ## The body's payload at an entry -/

/-- Row `p`, column `j` of what the body stores: the sixteen-term product of the block's row with the weight's
    column, plus the bias at the column. -/
theorem pay_apply (x0 : Vec Ideal S10000x16 .f32) (x1 : Vec Ideal Cert.KernelIdeal.S16x1 .f32)
    (x2 : Vec Ideal Cert.KernelIdeal.S1x1 .f32) (p : Fin 10000) (j : Fin 1) :
    k3_pay1 (F := Ideal) x0 x1 x2 (ix2 p j)
      = (∑ a : Fin 16, x0 (ix2 p a) * x1 (ix2 a j)) + x2 (ix2 (0 : Fin 1) j) := by
  unfold k3_pay1
  rw [addf_apply]
  simp only [shapeCast_self]
  rw [Cert.Lib.Dot2.matmul_zero_ix2 dot_S10000x16_S16x1_S10000x1_1_0_0_1_n_n none contr_rank contr_size lhs_0 lhs_1 rhs_0 rhs_1,
    broadcastTo_1b_ab_apply]

/-! ## One grid point's block of the output -/

/-- What a point's body stores, entry by entry, when its first input is rows `r … r + 9999` of `z` and the other two
    are the whole weight and bias: the projection and bias of `z` at row `r + p`. -/
theorem point_eq (z : FVec Ideal SN16 .f32) (wt : FVec Ideal S16x1 .f32) (b : FVec Ideal S1x1 .f32)
    (x0 : Vec Ideal S10000x16 .f32) (x1 : Vec Ideal Cert.KernelIdeal.S16x1 .f32) (x2 : Vec Ideal Cert.KernelIdeal.S1x1 .f32) (r : ℕ)
    (h0 : ∀ (x : S10000x16.Idx) (k : SN16.Idx), (k 0).val = r + (x 0).val → (k 1).val = (x 1).val → x0 x = z k)
    (h1 : ∀ x : Cert.KernelIdeal.S16x1.Idx, x1 x = wt x) (h2 : ∀ x : Cert.KernelIdeal.S1x1.Idx, x2 x = b x)
    (y : S10000x1.Idx) (k : SN1.Idx) (hk0 : (k 0).val = r + (y 0).val) (hk1 : (k 1).val = (y 1).val) :
    k3_pay1 (F := Ideal) x0 x1 x2 y = dense16 z wt b k := by
  obtain ⟨p, j, rfl⟩ : ∃ (p : Fin 10000) (j : Fin 1), y = ix2 p j := ⟨y 0, y 1, eq_ix2 y⟩
  obtain ⟨n, f, rfl⟩ : ∃ (n : Fin 200000) (f : Fin 1), k = ix2 n f := ⟨k 0, k 1, eq_ix2 k⟩
  obtain rfl : f = j := Fin.ext hk1
  rw [pay_apply]
  show _ = (∑ a : Fin 16, z (ix2 n a) * wt (ix2 a f)) + b (ix2 (0 : Fin 1) f)
  rw [h2]
  congr 1
  refine Finset.sum_congr rfl fun a _ => ?_
  rw [h1, h0 (ix2 p a) (ix2 n a) hk0 rfl]

variable (V : (c : Dev nD) → (b : Ref sig .tc) → Buf (Elt Ideal) ((c : Thread nD τ).loc b))

/-! ## The blocks' places in their arrays -/

theorem hz : (![0, 0] : Fin 2 → Nat) = fun _ => 0 := funext fun a => by fin_cases a <;> rfl

/-- The index maps over the grid: point `t` reads and writes row block `t`; the weight and the bias have one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first input's block at point `t` is rows `10000 t … 10000 t + 9999` of its array. -/
theorem iblk0_apply (c : Dev nD) (t : Fin cfg3.N) (x : S10000x16.Idx) (k : SN16.Idx)
    (hk0 : (k 0).val = 10000 * t.val + (x 0).val) (hk1 : (k 1).val = (x 1).val) :
    (iblk3 V c 0 t : Vec Ideal S10000x16 .f32) x = (V c main_v56 : SN16.Idx → Elt Ideal .f32) k := by
  obtain ⟨e0, e1, -⟩ := idx_facts t
  unfold iblk3
  rw [View.read_apply]
  show V c main_v56 _ = V c main_v56 _
  congr 1
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 16 + 1 * (x 1).val = (k 1).val; rw [e1, hk1]; omega

/-- The weight's block at every point is the whole weight. -/
theorem iblk1_apply (c : Dev nD) (t : Fin cfg3.N) (x : Cert.KernelIdeal.S16x1.Idx) :
    (iblk3 V c 1 t : Vec Ideal Cert.KernelIdeal.S16x1 .f32) x = (V c main_v57 : S16x1.Idx → Elt Ideal .f32) x := by
  obtain ⟨-, -, e0, e1, -⟩ := idx_facts t
  unfold iblk3
  rw [View.read_apply]
  show V c main_v57 _ = V c main_v57 _
  congr 1
  funext a
  apply Fin.ext
  match a with
  | ⟨0, _⟩ => show win3_1.index t (0 : Fin 2) * 16 + 1 * (x 0).val = (x 0).val; rw [e0]; omega
  | ⟨1, _⟩ => show win3_1.index t (1 : Fin 2) * 1 + 1 * (x 1).val = (x 1).val; rw [e1]; omega

/-- The bias's block at every point is the whole bias. -/
theorem iblk2_apply (c : Dev nD) (t : Fin cfg3.N) (x : Cert.KernelIdeal.S1x1.Idx) :
    (iblk3 V c 2 t : Vec Ideal Cert.KernelIdeal.S1x1 .f32) x = (V c main_v58 : S1x1.Idx → Elt Ideal .f32) x := by
  obtain ⟨-, -, -, -, e0, e1, -⟩ := idx_facts t
  unfold iblk3
  rw [View.read_apply]
  show V c main_v58 _ = V c main_v58 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 1 + 1 * (x 1).val = (x 1).val; rw [e1]; omega

/-- What point `t` writes back is block `t` of the whole-array function of the entry arrays. -/
theorem flushed_eq (c : Dev nD) (t : Fin cfg3.N) :
    (dat3 (F := Ideal) V c).flushed 3 t
      = ((cfg3.win 3).blk t).view.read (Elt Ideal) (dense16 (V c main_v56) (V c main_v57) (V c main_v58)) := by
  show (cfg3.win 3).cut (grid3.coords t) ((dat3 V c).after 3 t) = _
  rw [after3_3]
  unfold out3_3
  rw [View.canon_unit_zero hz]
  simp only [View.ld_unit_zero (S := S10000x16) hz, View.ld_unit_zero (S := Cert.KernelIdeal.S16x1) hz,
    View.ld_unit_zero (S := Cert.KernelIdeal.S1x1) hz]
  obtain ⟨-, -, -, -, -, -, e0, e1⟩ := idx_facts t
  funext y
  rw [View.read_apply]
  refine point_eq (V c main_v56) (V c main_v57) (V c main_v58) _ _ _ (10000 * t.val)
    (fun x k h0 h1 => iblk0_apply V c t x k h0 h1) (iblk1_apply V c t) (iblk2_apply V c t) y _ ?_ ?_
  · show win3_3.index t (0 : Fin 2) * 10000 + 1 * (y 0).val = 10000 * t.val + (y 0).val; rw [e0]; omega
  · show win3_3.index t (1 : Fin 2) * 1 + 1 * (y 1).val = (y 1).val; rw [e1]; omega

/-! ## The blocks cover the array -/

/-- An index of the output array is in point `t`'s block iff each coordinate is in the block's range on its axis. -/
theorem mem_blk (t : Fin cfg3.N) (i : S200000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v59).slice (win3_3.rect t)).set ↔ _
  rw [View.set_slice_whole, Rect.mem_set_unit]
  exact Iff.rfl

/-- Row `r` of the output is written back by point `r / 10000`. -/
theorem cover (i : S200000x1.Idx) :
    ∃ t : Fin cfg3.N, (cfg3.win 3).flush t = true ∧ i ∈ ((cfg3.win 3).blk t).view.set := by
  have hi0 : (i 0).val < 200000 := (i 0).isLt
  have hi1 : (i 1).val < 1 := (i 1).isLt
  have hN : grid3.N = 20 := N_3
  have ht : (i 0).val / 10000 < grid3.N := by rw [hN]; omega
  refine ⟨⟨(i 0).val / 10000, ht⟩, flush3_3 _, ?_⟩
  rw [mem_blk]
  obtain ⟨-, -, -, -, -, -, e0, e1⟩ := idx_facts ⟨(i 0).val / 10000, ht⟩
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_3.index ⟨(i 0).val / 10000, ht⟩ (1 : Fin 2) * 1 ≤ (i 1).val ∧ (i 1).val < win3_3.index ⟨(i 0).val / 10000, ht⟩ (1 : Fin 2) * 1 + 1
    rw [e1]
    omega

/-- After region 3 its output array is the projection of the aggregated width-16 features plus the bias. -/
theorem value (c : Dev nD) :
    (dat3 (F := Ideal) V c).arrAt 3 cfg3.N = dense16 (V c main_v56) (V c main_v57) (V c main_v58) :=
  (dat3 (F := Ideal) V c).arrAt_eq_of_cover 3 (dense16 (V c main_v56) (V c main_v57) (V c main_v58))
    (fun t _ => flushed_eq V c t) cover

end Cert.GCN.Region3

end
-- ==== Proof.KernelChain.lean ====
/-
  The kernel program's result, boundary by boundary: what each host stretch and each region leaves in the buffers
  the next one reads, down to the launch memory. The result is the kernel's second layer of its first layer's
  output, over the edge list's columns and weights.
-/
import proofs.«127427_j39908836114582_1_alg».proof.Proof.Gen.KernelIdeal.Frame
import proofs.«127427_j39908836114582_1_alg».proof.Proof.Graph
import proofs.«127427_j39908836114582_1_alg».proof.Proof.Region0
import proofs.«127427_j39908836114582_1_alg».proof.Proof.Region1
import proofs.«127427_j39908836114582_1_alg».proof.Proof.Region2
import proofs.«127427_j39908836114582_1_alg».proof.Proof.Region3
import Idealize.ShloMosaic.Lib.StableHlo.Run
import Idealize.ShloMosaic.Lib.Pipeline.Value

set_option maxRecDepth 16384

noncomputable section

namespace Cert.GCN.Chain

open Idealize.ShloMosaic Idealize.ShloMosaic.ValueIdx Idealize.ShloMosaic.TcCoe Idealize.SL.Sem Idealize.ShloMosaic.StableHlo
open Cert.KernelIdeal Cert.KernelIdeal.Gen Cert.GCN

variable (m : (ℓ : Loc nD τ sig) → Buf (Elt Ideal) ℓ) (ρ : Dev nD → PrngReg)

/-- The argument arrays at launch. -/
abbrev A0 (c : Dev nD) : FVec Ideal S200000x4 .f32 := m ((c.tc : Thread nD τ).loc main_arg0)
abbrev A1 (c : Dev nD) : FVec Ideal S16x1 .f32 := m ((c.tc : Thread nD τ).loc main_arg1)
abbrev A2 (c : Dev nD) : FVec Ideal S16 .f32 := m ((c.tc : Thread nD τ).loc main_arg2)
abbrev A3 (c : Dev nD) : FVec Ideal S1x16 .f32 := m ((c.tc : Thread nD τ).loc main_arg3)
abbrev A4 (c : Dev nD) : FVec Ideal S1 .f32 := m ((c.tc : Thread nD τ).loc main_arg4)
abbrev A5 (c : Dev nD) : IVec S2x5000000 32 := m ((c.tc : Thread nD τ).loc main_arg5)

/-- The wrapped sources, the raw targets, the weights, the first feature column and the two transposed weight matrices. -/
abbrev σ (c : Dev nD) : IVec SE1 32 := wrapCol (srcOf (A5 m c))
abbrev δ (c : Dev nD) : IVec SE1 32 := rawCol (dstOf (A5 m c))
abbrev ν (c : Dev nD) : FVec Ideal SE .f32 := normV (A5 m c)
abbrev x0c (c : Dev nD) : FVec Ideal SN1 .f32 := extractStridedSlice S200000x1 ![0, 0] (A0 m c) Facts₀.slices_S200000x4_S200000x1_0_0
abbrev w1t (c : Dev nD) : FVec Ideal GCN.S1x16 .f32 := transpose S1x16 [1, 0] (A1 m c) Facts₀.transposes_S16x1_S1x16_1_0
abbrev w2t (c : Dev nD) : FVec Ideal GCN.S16x1 .f32 := transpose S16x1 [1, 0] (A3 m c) Facts₀.transposes_S1x16_S16x1_1_0
/-- The first layer's output. -/
abbrev h1 (c : Dev nD) : FVec Ideal SN16 .f32 := kLayer1 (σ m c) (δ m c) (ν m c) (x0c m c) (w1t m c) (A2 m c)

/-! ## The three host stretches before region 0, each from any buffer contents `W` -/

section Stretches

variable (W : Valuation τ sig (Elt Ideal))

set_option maxHeartbeats 1000000 in
theorem H0_v5 : StableHlo.after hostOps0 W (Proc.devRef .tc main_v5) = srcOf (W (Proc.devRef .tc main_arg5)) := by
  after_results
  all_goals rfl

set_option maxHeartbeats 1000000 in
theorem H0_v6 : StableHlo.after hostOps0 W (Proc.devRef .tc main_v6) = dstOf (W (Proc.devRef .tc main_arg5)) := by
  after_results
  all_goals rfl

set_option maxHeartbeats 1000000 in
theorem H0_v12 : StableHlo.after hostOps0 W (Proc.devRef .tc main_v12) = cmpf .ogt (degOf (rawCol (dstOf (W (Proc.devRef .tc main_arg5))))) (broadcastInDim S200000 ![] Facts₀.bcast_S_S200000 (constant S_ .f32 0x00000000#32)) := by
  after_results
  all_goals rfl

set_option maxHeartbeats 1000000 in
theorem H0_v13 : StableHlo.after hostOps0 W (Proc.devRef .tc main_v13) = Host.rsqrt (degOf (rawCol (dstOf (W (Proc.devRef .tc main_arg5))))) := by
  after_results
  all_goals rfl

set_option maxHeartbeats 1000000 in
theorem H0_cst2 : StableHlo.after hostOps0 W (Proc.devRef .tc main_cst_2) = (constant (F := Ideal) S_ .f32 0x00000000#32 : FVec Ideal S_ .f32) := by
  after_results
  all_goals rfl

set_option maxHeartbeats 1000000 in
theorem H0_arg0 : StableHlo.after hostOps0 W (Proc.devRef .tc main_arg0) = W (Proc.devRef .tc main_arg0) := by
  after_results
set_option maxHeartbeats 1000000 in
theorem H0_arg1 : StableHlo.after hostOps0 W (Proc.devRef .tc main_arg1) = W (Proc.devRef .tc main_arg1) := by
  after_results
set_option maxHeartbeats 1000000 in
theorem H0_arg2 : StableHlo.after hostOps0 W (Proc.devRef .tc main_arg2) = W (Proc.devRef .tc main_arg2) := by
  after_results
set_option maxHeartbeats 1000000 in
theorem H0_arg3 : StableHlo.after hostOps0 W (Proc.devRef .tc main_arg3) = W (Proc.devRef .tc main_arg3) := by
  after_results
set_option maxHeartbeats 1000000 in
theorem H0_arg4 : StableHlo.after hostOps0 W (Proc.devRef .tc main_arg4) = W (Proc.devRef .tc main_arg4) := by
  after_results

set_option maxHeartbeats 1000000 in
theorem H1_v14 : StableHlo.after hostOps0_1 W (Proc.devRef .tc main_v14) = select (W (Proc.devRef .tc main_v12)) (W (Proc.devRef .tc main_v13)) (broadcastInDim S200000 ![] Facts₀.bcast_S_S200000 (id (W (Proc.devRef .tc main_cst_2)))) := by
  after_results
  all_goals (try simp only [TRef.ofBuf, TRef.toBuf, cast_eq])
  all_goals (try rfl)

set_option maxHeartbeats 1000000 in
theorem H1_v5 : StableHlo.after hostOps0_1 W (Proc.devRef .tc main_v5) = W (Proc.devRef .tc main_v5) := by
  after_results
set_option maxHeartbeats 1000000 in
theorem H1_v6 : StableHlo.after hostOps0_1 W (Proc.devRef .tc main_v6) = W (Proc.devRef .tc main_v6) := by
  after_results
set_option maxHeartbeats 1000000 in
theorem H1_arg0 : StableHlo.after hostOps0_1 W (Proc.devRef .tc main_arg0) = W (Proc.devRef .tc main_arg0) := by
  after_results
set_option maxHeartbeats 1000000 in
theorem H1_arg1 : StableHlo.after hostOps0_1 W (Proc.devRef .tc main_arg1) = W (Proc.devRef .tc main_arg1) := by
  after_results
set_option maxHeartbeats 1000000 in
theorem H1_arg2 : StableHlo.after hostOps0_1 W (Proc.devRef .tc main_arg2) = W (Proc.devRef .tc main_arg2) := by
  after_results
set_option maxHeartbeats 1000000 in
theorem H1_arg3 : StableHlo.after hostOps0_1 W (Proc.devRef .tc main_arg3) = W (Proc.devRef .tc main_arg3) := by
  after_results
set_option maxHeartbeats 1000000 in
theorem H1_arg4 : StableHlo.after hostOps0_1 W (Proc.devRef .tc main_arg4) = W (Proc.devRef .tc main_arg4) := by
  after_results

set_option maxHeartbeats 1000000 in
theorem H2_v30 : StableHlo.after hostOps0_2 W (Proc.devRef .tc main_v30) = colK (normOf (W (Proc.devRef .tc main_v14)) (wrapCol (W (Proc.devRef .tc main_v5))) (wrapCol (W (Proc.devRef .tc main_v6)))) := by
  after_results
  all_goals rfl

set_option maxHeartbeats 1000000 in
theorem H2_v38 : StableHlo.after hostOps0_2 W (Proc.devRef .tc main_v38) = Host.gather gather_S200000x1_S5200000x1_S5200000x1_1_0_n_n_0_1_11 (extractStridedSlice S200000x1 ![0, 0] (W (Proc.devRef .tc main_arg0)) Facts₀.slices_S200000x4_S200000x1_0_0) (wrapCol (W (Proc.devRef .tc main_v5))) := by
  after_results
  all_goals rfl

set_option maxHeartbeats 1000000 in
theorem H2_v5 : StableHlo.after hostOps0_2 W (Proc.devRef .tc main_v5) = W (Proc.devRef .tc main_v5) := by
  after_results
set_option maxHeartbeats 1000000 in
theorem H2_v6 : StableHlo.after hostOps0_2 W (Proc.devRef .tc main_v6) = W (Proc.devRef .tc main_v6) := by
  after_results
set_option maxHeartbeats 1000000 in
theorem H2_arg1 : StableHlo.after hostOps0_2 W (Proc.devRef .tc main_arg1) = W (Proc.devRef .tc main_arg1) := by
  after_results
set_option maxHeartbeats 1000000 in
theorem H2_arg2 : StableHlo.after hostOps0_2 W (Proc.devRef .tc main_arg2) = W (Proc.devRef .tc main_arg2) := by
  after_results
set_option maxHeartbeats 1000000 in
theorem H2_arg3 : StableHlo.after hostOps0_2 W (Proc.devRef .tc main_arg3) = W (Proc.devRef .tc main_arg3) := by
  after_results
set_option maxHeartbeats 1000000 in
theorem H2_arg4 : StableHlo.after hostOps0_2 W (Proc.devRef .tc main_arg4) = W (Proc.devRef .tc main_arg4) := by
  after_results

end Stretches

/-! ## At region 0's entry: everything the host computed from the arguments -/

theorem W1_v5 (c : Dev nD) : W1 m ρ c (Proc.devRef .tc main_v5) = srcOf (A5 m c) := H0_v5 (W0 m ρ c)
theorem W1_v6 (c : Dev nD) : W1 m ρ c (Proc.devRef .tc main_v6) = dstOf (A5 m c) := H0_v6 (W0 m ρ c)
theorem W2_v14 (c : Dev nD) : W2 m ρ c (Proc.devRef .tc main_v14) = dinvOf (degOf (δ m c)) :=
  (H1_v14 (W1 m ρ c)).trans (by
    rw [show W1 m ρ c (Proc.devRef .tc main_v12) = _ from H0_v12 (W0 m ρ c),
      show W1 m ρ c (Proc.devRef .tc main_v13) = _ from H0_v13 (W0 m ρ c),
      show W1 m ρ c (Proc.devRef .tc main_cst_2) = _ from H0_cst2 (W0 m ρ c)]
    rfl)
theorem W2_v5 (c : Dev nD) : W2 m ρ c (Proc.devRef .tc main_v5) = srcOf (A5 m c) := (H1_v5 (W1 m ρ c)).trans (W1_v5 m ρ c)
theorem W2_v6 (c : Dev nD) : W2 m ρ c (Proc.devRef .tc main_v6) = dstOf (A5 m c) := (H1_v6 (W1 m ρ c)).trans (W1_v6 m ρ c)
theorem W2_arg0 (c : Dev nD) : W2 m ρ c (Proc.devRef .tc main_arg0) = A0 m c := (H1_arg0 (W1 m ρ c)).trans (H0_arg0 (W0 m ρ c))
theorem W3_v5 (c : Dev nD) : W3 m ρ c (Proc.devRef .tc main_v5) = srcOf (A5 m c) := (H2_v5 (W2 m ρ c)).trans (W2_v5 m ρ c)
theorem W3_v6 (c : Dev nD) : W3 m ρ c (Proc.devRef .tc main_v6) = dstOf (A5 m c) := (H2_v6 (W2 m ρ c)).trans (W2_v6 m ρ c)
theorem W3_v30 (c : Dev nD) : W3 m ρ c (Proc.devRef .tc main_v30) = colK (ν m c) :=
  (H2_v30 (W2 m ρ c)).trans (by rw [W2_v14, W2_v5, W2_v6]; rfl)
theorem W3_v38 (c : Dev nD) : W3 m ρ c (Proc.devRef .tc main_v38)
    = Host.gather gather_S200000x1_S5200000x1_S5200000x1_1_0_n_n_0_1_11 (x0c m c) (σ m c) :=
  (H2_v38 (W2 m ρ c)).trans (by rw [W2_arg0, W2_v5])
theorem W3_arg1 (c : Dev nD) : W3 m ρ c (Proc.devRef .tc main_arg1) = A1 m c :=
  (H2_arg1 (W2 m ρ c)).trans ((H1_arg1 (W1 m ρ c)).trans (H0_arg1 (W0 m ρ c)))
theorem W3_arg2 (c : Dev nD) : W3 m ρ c (Proc.devRef .tc main_arg2) = A2 m c :=
  (H2_arg2 (W2 m ρ c)).trans ((H1_arg2 (W1 m ρ c)).trans (H0_arg2 (W0 m ρ c)))
theorem W3_arg3 (c : Dev nD) : W3 m ρ c (Proc.devRef .tc main_arg3) = A3 m c :=
  (H2_arg3 (W2 m ρ c)).trans ((H1_arg3 (W1 m ρ c)).trans (H0_arg3 (W0 m ρ c)))
theorem W3_arg4 (c : Dev nD) : W3 m ρ c (Proc.devRef .tc main_arg4) = A4 m c :=
  (H2_arg4 (W2 m ρ c)).trans ((H1_arg4 (W1 m ρ c)).trans (H0_arg4 (W0 m ρ c)))

/-! ## After region 0 -/

theorem W4_v39 (c : Dev nD) : W4 m ρ c (Proc.devRef .tc main_v39)
    = scale1 (Host.gather gather_S200000x1_S5200000x1_S5200000x1_1_0_n_n_0_1_11 (x0c m c) (σ m c)) (colK (ν m c)) := by
  refine (W4_arr m ρ c 2).trans ?_
  rw [Region0.value (V3 m ρ) c]
  show scale1 (W3 m ρ c (Proc.devRef .tc main_v38)) (W3 m ρ c (Proc.devRef .tc main_v30)) = _
  rw [W3_v38, W3_v30]
/-- The weight column is an input of region 0: it leaves it as it entered. -/
theorem W4_v30 (c : Dev nD) : W4 m ρ c (Proc.devRef .tc main_v30) = W3 m ρ c (Proc.devRef .tc main_v30) :=
  (W4_arr m ρ c 1).trans (((dat0 (V3 m ρ) c).arrAt_in 1 rfl cfg0.N).trans (A_eq0 (V3 m ρ) c 1))
theorem W4_v5 (c : Dev nD) : W4 m ρ c (Proc.devRef .tc main_v5) = W3 m ρ c (Proc.devRef .tc main_v5) :=
  W4_of_ne m ρ c main_v5 (by decide)
theorem W4_v6 (c : Dev nD) : W4 m ρ c (Proc.devRef .tc main_v6) = W3 m ρ c (Proc.devRef .tc main_v6) :=
  W4_of_ne m ρ c main_v6 (by decide)
theorem W4_arg1 (c : Dev nD) : W4 m ρ c (Proc.devRef .tc main_arg1) = W3 m ρ c (Proc.devRef .tc main_arg1) :=
  W4_of_ne m ρ c main_arg1 (by decide)
theorem W4_arg2 (c : Dev nD) : W4 m ρ c (Proc.devRef .tc main_arg2) = W3 m ρ c (Proc.devRef .tc main_arg2) :=
  W4_of_ne m ρ c main_arg2 (by decide)
theorem W4_arg3 (c : Dev nD) : W4 m ρ c (Proc.devRef .tc main_arg3) = W3 m ρ c (Proc.devRef .tc main_arg3) :=
  W4_of_ne m ρ c main_arg3 (by decide)
theorem W4_arg4 (c : Dev nD) : W4 m ρ c (Proc.devRef .tc main_arg4) = W3 m ρ c (Proc.devRef .tc main_arg4) :=
  W4_of_ne m ρ c main_arg4 (by decide)

/-! ## At region 1's entry -/

set_option maxHeartbeats 2000000 in
theorem W5_v42 (c : Dev nD) : W5 m ρ c (Proc.devRef .tc main_v42)
    = Host.scatterAdd scatter_S200000x1_S5200000x1_S5200000x1_1_0_0_1
        (broadcastInDim S200000x1 ![] Facts₀.bcast_S_S200000x1 (constant S_ .f32 0x00000000#32)) (δ m c)
        (scale1 (Host.gather gather_S200000x1_S5200000x1_S5200000x1_1_0_n_n_0_1_11 (x0c m c) (σ m c)) (colK (ν m c))) := by
  show StableHlo.after hostOps1 (W4 m ρ c) (Proc.devRef .tc main_v42) = _
  after_results_simp
  rw [W4_v6, W3_v6, W4_v39]
  rfl
set_option maxHeartbeats 2000000 in
theorem W5_v43 (c : Dev nD) : W5 m ρ c (Proc.devRef .tc main_v43) = w1t m c := by
  show StableHlo.after hostOps1 (W4 m ρ c) (Proc.devRef .tc main_v43) = _
  after_results_simp
  rw [W4_arg1, W3_arg1]
set_option maxHeartbeats 2000000 in
theorem W5_v44 (c : Dev nD) : W5 m ρ c (Proc.devRef .tc main_v44)
    = shapeCast S1x16 (A2 m c) Facts₀.shapeCasts_S16_S1x16 := by
  show StableHlo.after hostOps1 (W4 m ρ c) (Proc.devRef .tc main_v44) = _
  after_results_simp
  rw [W4_arg2, W3_arg2]
  rfl
theorem W5_v5 (c : Dev nD) : W5 m ρ c (Proc.devRef .tc main_v5) = W4 m ρ c (Proc.devRef .tc main_v5) := by
  show StableHlo.after hostOps1 (W4 m ρ c) (Proc.devRef .tc main_v5) = _
  after_results_simp <;> rfl
theorem W5_v6 (c : Dev nD) : W5 m ρ c (Proc.devRef .tc main_v6) = W4 m ρ c (Proc.devRef .tc main_v6) := by
  show StableHlo.after hostOps1 (W4 m ρ c) (Proc.devRef .tc main_v6) = _
  after_results_simp <;> rfl
theorem W5_v30 (c : Dev nD) : W5 m ρ c (Proc.devRef .tc main_v30) = W4 m ρ c (Proc.devRef .tc main_v30) := by
  show StableHlo.after hostOps1 (W4 m ρ c) (Proc.devRef .tc main_v30) = _
  after_results_simp <;> rfl
theorem W5_arg3 (c : Dev nD) : W5 m ρ c (Proc.devRef .tc main_arg3) = W4 m ρ c (Proc.devRef .tc main_arg3) := by
  show StableHlo.after hostOps1 (W4 m ρ c) (Proc.devRef .tc main_arg3) = _
  after_results_simp <;> rfl
theorem W5_arg4 (c : Dev nD) : W5 m ρ c (Proc.devRef .tc main_arg4) = W4 m ρ c (Proc.devRef .tc main_arg4) := by
  show StableHlo.after hostOps1 (W4 m ρ c) (Proc.devRef .tc main_arg4) = _
  after_results_simp <;> rfl

/-! ## After region 1: the first layer's output -/

theorem W6_v45 (c : Dev nD) : W6 m ρ c (Proc.devRef .tc main_v45) = h1 m c := by
  refine (W6_arr m ρ c 3).trans ?_
  rw [Region1.value (V5 m ρ) c]
  show dense1 (W5 m ρ c (Proc.devRef .tc main_v42)) (W5 m ρ c (Proc.devRef .tc main_v43)) (W5 m ρ c (Proc.devRef .tc main_v44)) = _
  rw [W5_v42, W5_v43, W5_v44]
  rfl
theorem W6_v5 (c : Dev nD) : W6 m ρ c (Proc.devRef .tc main_v5) = W5 m ρ c (Proc.devRef .tc main_v5) :=
  W6_of_ne m ρ c main_v5 (by decide)
theorem W6_v6 (c : Dev nD) : W6 m ρ c (Proc.devRef .tc main_v6) = W5 m ρ c (Proc.devRef .tc main_v6) :=
  W6_of_ne m ρ c main_v6 (by decide)
theorem W6_v30 (c : Dev nD) : W6 m ρ c (Proc.devRef .tc main_v30) = W5 m ρ c (Proc.devRef .tc main_v30) :=
  W6_of_ne m ρ c main_v30 (by decide)
theorem W6_arg3 (c : Dev nD) : W6 m ρ c (Proc.devRef .tc main_arg3) = W5 m ρ c (Proc.devRef .tc main_arg3) :=
  W6_of_ne m ρ c main_arg3 (by decide)
theorem W6_arg4 (c : Dev nD) : W6 m ρ c (Proc.devRef .tc main_arg4) = W5 m ρ c (Proc.devRef .tc main_arg4) :=
  W6_of_ne m ρ c main_arg4 (by decide)

/-! ## At region 2's entry -/

set_option maxHeartbeats 2000000 in
theorem W7_v52 (c : Dev nD) : W7 m ρ c (Proc.devRef .tc main_v52)
    = Host.gather gather_S200000x16_S5200000x1_S5200000x16_1_0_n_n_0_1_116 (h1 m c) (σ m c) := by
  show StableHlo.after hostOps2 (W6 m ρ c) (Proc.devRef .tc main_v52) = _
  after_results_simp
  rw [W6_v5, W5_v5, W4_v5, W3_v5, W6_v45]
  rfl
theorem W7_v6 (c : Dev nD) : W7 m ρ c (Proc.devRef .tc main_v6) = W6 m ρ c (Proc.devRef .tc main_v6) := by
  show StableHlo.after hostOps2 (W6 m ρ c) (Proc.devRef .tc main_v6) = _
  after_results_simp <;> rfl
theorem W7_v30 (c : Dev nD) : W7 m ρ c (Proc.devRef .tc main_v30) = W6 m ρ c (Proc.devRef .tc main_v30) := by
  show StableHlo.after hostOps2 (W6 m ρ c) (Proc.devRef .tc main_v30) = _
  after_results_simp <;> rfl
theorem W7_arg3 (c : Dev nD) : W7 m ρ c (Proc.devRef .tc main_arg3) = W6 m ρ c (Proc.devRef .tc main_arg3) := by
  show StableHlo.after hostOps2 (W6 m ρ c) (Proc.devRef .tc main_arg3) = _
  after_results_simp <;> rfl
theorem W7_arg4 (c : Dev nD) : W7 m ρ c (Proc.devRef .tc main_arg4) = W6 m ρ c (Proc.devRef .tc main_arg4) := by
  show StableHlo.after hostOps2 (W6 m ρ c) (Proc.devRef .tc main_arg4) = _
  after_results_simp <;> rfl

/-! ## After region 2 -/

theorem W8_v53 (c : Dev nD) : W8 m ρ c (Proc.devRef .tc main_v53)
    = scale16 (Host.gather gather_S200000x16_S5200000x1_S5200000x16_1_0_n_n_0_1_116 (h1 m c) (σ m c)) (colK (ν m c)) := by
  refine (W8_arr m ρ c 2).trans ?_
  rw [Region2.value (V7 m ρ) c]
  show scale16 (W7 m ρ c (Proc.devRef .tc main_v52)) (W7 m ρ c (Proc.devRef .tc main_v30)) = _
  rw [W7_v52, W7_v30, W6_v30, W5_v30, W4_v30, W3_v30]
theorem W8_v6 (c : Dev nD) : W8 m ρ c (Proc.devRef .tc main_v6) = W7 m ρ c (Proc.devRef .tc main_v6) :=
  W8_of_ne m ρ c main_v6 (by decide)
theorem W8_arg3 (c : Dev nD) : W8 m ρ c (Proc.devRef .tc main_arg3) = W7 m ρ c (Proc.devRef .tc main_arg3) :=
  W8_of_ne m ρ c main_arg3 (by decide)
theorem W8_arg4 (c : Dev nD) : W8 m ρ c (Proc.devRef .tc main_arg4) = W7 m ρ c (Proc.devRef .tc main_arg4) :=
  W8_of_ne m ρ c main_arg4 (by decide)

/-! ## At region 3's entry -/

set_option maxHeartbeats 2000000 in
theorem W9_v56 (c : Dev nD) : W9 m ρ c (Proc.devRef .tc main_v56)
    = Host.scatterAdd scatter_S200000x16_S5200000x1_S5200000x16_1_0_0_1
        (broadcastInDim S200000x16 ![] Facts₀.bcast_S_S200000x16 (constant S_ .f32 0x00000000#32)) (δ m c)
        (scale16 (Host.gather gather_S200000x16_S5200000x1_S5200000x16_1_0_n_n_0_1_116 (h1 m c) (σ m c)) (colK (ν m c))) := by
  show StableHlo.after hostOps3 (W8 m ρ c) (Proc.devRef .tc main_v56) = _
  after_results_simp
  rw [W8_v6, W7_v6, W6_v6, W5_v6, W4_v6, W3_v6, W8_v53]
  rfl
set_option maxHeartbeats 2000000 in
theorem W9_v57 (c : Dev nD) : W9 m ρ c (Proc.devRef .tc main_v57) = w2t m c := by
  show StableHlo.after hostOps3 (W8 m ρ c) (Proc.devRef .tc main_v57) = _
  after_results_simp
  rw [W8_arg3, W7_arg3, W6_arg3, W5_arg3, W4_arg3, W3_arg3]
set_option maxHeartbeats 2000000 in
theorem W9_v58 (c : Dev nD) : W9 m ρ c (Proc.devRef .tc main_v58)
    = shapeCast S1x1 (A4 m c) Facts₀.shapeCasts_S1_S1x1 := by
  show StableHlo.after hostOps3 (W8 m ρ c) (Proc.devRef .tc main_v58) = _
  after_results_simp
  rw [W8_arg4, W7_arg4, W6_arg4, W5_arg4, W4_arg4, W3_arg4]
  rfl

/-! ## The result -/

/-- After the last region the result array is the kernel's second layer of its first layer's output. -/
theorem kernel_value (c : Dev nD) : W10 m ρ c (Proc.devRef .tc main_v59)
    = kLayer2 (σ m c) (δ m c) (ν m c) (h1 m c) (w2t m c) (A4 m c) := by
  refine (W10_arr m ρ c 3).trans ?_
  rw [Region3.value (V9 m ρ) c]
  show dense16 (W9 m ρ c (Proc.devRef .tc main_v56)) (W9 m ρ c (Proc.devRef .tc main_v57)) (W9 m ρ c (Proc.devRef .tc main_v58)) = _
  rw [W9_v56, W9_v57, W9_v58]
  rfl

end Cert.GCN.Chain

end
-- ==== Proof.Reals.lean ====
/-
  Extended reals that are real numbers, and the one law the two orders of a graph-convolution layer differ by.
-/
import Idealize.ShloMosaic.PureOps.Ideal

noncomputable section

namespace Cert.GCN

/-- An extended real that is (the coercion of) a real number. -/
def IsReal (x : EReal) : Prop := ∃ r : ℝ, x = (r : EReal)

theorem IsReal.zero : IsReal 0 := ⟨0, EReal.coe_zero.symm⟩
theorem IsReal.one : IsReal 1 := ⟨1, EReal.coe_one.symm⟩
theorem IsReal.coe (r : ℝ) : IsReal (r : EReal) := ⟨r, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (S : Finset ι) (f : ι → EReal) (h : ∀ e ∈ S, IsReal (f e)) : IsReal (∑ e ∈ S, f e) := by
  classical
  induction S using Finset.induction_on with
  | empty => simpa using IsReal.zero
  | insert i T hi ih =>
    rw [Finset.sum_insert hi]
    exact IsReal.add (h i (Finset.mem_insert_self i T))
      (ih (fun e he => h e (Finset.mem_insert_of_mem he)))
/-- Finite in absolute value means real. -/
theorem IsReal.of_ne {x : EReal} (ht : x ≠ ⊤) (hb : x ≠ ⊥) : IsReal x :=
  ⟨x.toReal, (EReal.coe_toReal ht hb).symm⟩

/-- The coercion of reals into extended reals commutes with finite sums. -/
private theorem coe_sum_real {ι : Type*} (S : Finset ι) (f : ι → ℝ) :
    (∑ e ∈ S, ((f e : ℝ) : EReal)) = ((∑ e ∈ S, f e : ℝ) : EReal) := by
  classical
  induction S using Finset.induction_on with
  | empty => simp
  | insert i T hi ih =>
    rw [Finset.sum_insert hi, Finset.sum_insert hi, ih, EReal.coe_add]

/-- Aggregating over a finite set of edges and then contracting with real weights equals contracting per edge and then
    aggregating, when every entry is real: distributivity and a swap of two finite sums, in ℝ. -/
theorem agg_swap {ι : Type*} (S : Finset ι) {K : ℕ} (a : ι → Fin K → EReal) (n : ι → EReal) (w : Fin K → EReal)
    (ha : ∀ e k, IsReal (a e k)) (hn : ∀ e, IsReal (n e)) (hw : ∀ k, IsReal (w k)) :
    ∑ k : Fin K, (0 + ∑ e ∈ S, a e k * n e) * w k = 0 + ∑ e ∈ S, (∑ k : Fin K, a e k * w k) * n e := by
  choose a' ha' using ha
  choose n' hn' using hn
  choose w' hw' using hw
  simp only [ha', hn', hw', zero_add, ← EReal.coe_mul, coe_sum_real]
  congr 1
  simp only [Finset.sum_mul]
  rw [Finset.sum_comm]
  refine Finset.sum_congr rfl (fun e _ => Finset.sum_congr rfl (fun k _ => ?_))
  ring

end Cert.GCN

end
-- ==== Proof.Index.lean ====
/-
  A row gather and a row scatter-add over a table of 200,000 rows, read at an entry.
-/
import proofs.«127427_j39908836114582_1_alg».proof.Proof.Spec
import Idealize.ShloMosaic.Lib.ValueIdx

noncomputable section

namespace Cert.GCN

open Idealize.ShloMosaic Idealize.ShloMosaic.ValueIdx

/-- The row a gather reads for edge `e`: the start index read signed and clamped into [0, 199999]. -/
def rowOf (σ : IVec SE1 32) (e : Fin 5200000) : Fin 200000 :=
  ⟨min (σ (ix2 e 0)).toInt.toNat 199999, by omega⟩

/-- The dimension numbers of a gather of whole rows, as a literal record over any proof of their conditions. -/
private abbrev rowDims (C : Nat)
    (wf : GatherDims.WF (⟨2, ![200000, C]⟩ : Shape) SE1 (⟨2, ![5200000, C]⟩ : Shape) [1] [0] [] [0] [] 1 ![1, C]) :
    GatherDims (⟨2, ![200000, C]⟩ : Shape) SE1 (⟨2, ![5200000, C]⟩ : Shape) where
  offsetDims := [1]
  collapsedSliceDims := [0]
  operandBatchingDims := []
  startIndicesBatchingDims := []
  startIndexMap := [0]
  indexVectorDim := 1
  sliceSizes := ![1, C]
  wf := wf

/-- The gather of whole rows read at (e, f): on the row axis the clamped start, on the column axis the offset
    coordinate `f`. -/
private theorem gather_rowDims {α : Type} {C : Nat}
    (wf : GatherDims.WF (⟨2, ![200000, C]⟩ : Shape) SE1 (⟨2, ![5200000, C]⟩ : Shape) [1] [0] [] [0] [] 1 ![1, C])
    (x : (⟨2, ![200000, C]⟩ : Shape).Idx → α) (σ : IVec SE1 32) (e : Fin 5200000) (f : Fin C) :
    Host.gather (rowDims C wf) x σ (ix2 e f) = x (ix2 (rowOf σ e) f) := by
  unfold Host.gather
  congr 1
  funext a
  refine Fin.ext ?_
  match a with
  | ⟨0, _⟩ =>
    show (rowDims C wf).start (ix2 e f) σ 0 + (rowDims C wf).batchCoord (ix2 e f) 0 + (rowDims C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims C wf).startIndexMap from List.mem_singleton.mpr rfl)]
    have hsi : (rowDims C wf).siIdx (ix2 e f) ⟨List.idxOf (0 : Fin 2) (rowDims C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims C wf).start (ix2 e f) σ 1 + (rowDims C wf).batchCoord (ix2 e f) 1 + (rowDims C wf).offCoord (ix2 e f) 1 = _
    rw [GatherDims.batchCoord_eq_zero _ _ _ List.not_mem_nil]
    have h1 : (rowDims C wf).start (ix2 e f) σ 1 = 0 := by
      unfold GatherDims.start
      rw [dif_neg (show (1 : Fin 2) ∉ (rowDims C wf).startIndexMap from (by decide : (1 : Fin 2) ∉ ([0] : List (Fin 2))))]
    have h2 : (rowDims C wf).offCoord (ix2 e f) 1 = f.val := by
      unfold GatherDims.offCoord
      rw [dif_pos (show (1 : Fin 2) ∈ (rowDims C wf).sKept from (GatherDims.mem_sKept _ _).mpr
        ⟨(by decide : (1 : Fin 2) ∉ ([0] : List (Fin 2))), List.not_mem_nil⟩)]
      rfl
    rw [h1, h2]
    simp

/-- A gather of whole rows (collapsed axis 0, start index map [0], index vector axis 1, slices 1 × C) reads row
    `rowOf σ e` of the table at column `f`, whatever the width `C`. -/
theorem gather_rows {α : Type} {C : Nat}
    (d : GatherDims (⟨2, ![200000, C]⟩ : Shape) SE1 (⟨2, ![5200000, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![200000, C]⟩ : Shape).Idx → α) (σ : IVec SE1 32) (e : Fin 5200000) (f : Fin C) :
    Host.gather d x σ (ix2 e f) = x (ix2 (rowOf σ e) f) := by
  obtain ⟨od, cd, ob, sb, sm, iv, ss, wf⟩ := d
  simp only at h1 h2 h3 h4 h5 h6 h7
  subst h1 h2 h3 h4 h5 h6 h7
  exact gather_rowDims wf x σ e f

/-- An update lands at operand index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split at h
    · rename_i hh
      have h2 := congrArg Fin.val (congrFun (Option.some.inj h) a)
      simp only at h2
      have := hh a
      omega
    · cases h
  · intro h
    have hh : ∀ a, 0 ≤ d.start j idx a + (d.window j a : ℤ) ∧ d.start j idx a + (d.window j a : ℤ) < s.size a := by
      intro a
      have h1 := h a
      have h2 := (i a).isLt
      omega
    rw [dif_pos hh]
    congr 1
    funext a
    refine Fin.ext ?_
    have h1 := h a
    simp only
    omega

/-- The dimension numbers of a scatter of whole rows, as a literal record over any proof of their conditions. -/
private abbrev rowScatter (C : Nat)
    (wf : ScatterDims.WF (⟨2, ![200000, C]⟩ : Shape) SE1 (⟨2, ![5200000, C]⟩ : Shape) [1] [0] [0] 1) :
    ScatterDims (⟨2, ![200000, C]⟩ : Shape) SE1 (⟨2, ![5200000, C]⟩ : Shape) := ⟨[1], [0], [0], 1, wf⟩

/-- Update (e, f') of a scatter of whole rows lands at (n, f) exactly when the raw signed index of edge `e` is `n`
    and the columns agree: the row axis carries the start and no window coordinate, the column axis no start and
    the window coordinate `f'`. -/
private theorem rowScatter_lands {C : Nat}
    (wf : ScatterDims.WF (⟨2, ![200000, C]⟩ : Shape) SE1 (⟨2, ![5200000, C]⟩ : Shape) [1] [0] [0] 1)
    (idx : IVec SE1 32) (e : Fin 5200000) (f' : Fin C) (n : Fin 200000) (f : Fin C) :
    (rowScatter C wf).resultIdx? (ix2 e f') idx = some (ix2 n f)
      ↔ (idx (ix2 e 0)).toInt = (n.val : ℤ) ∧ f' = f := by
  have hs0 : (rowScatter C wf).start (ix2 e f') idx 0 = (idx (ix2 e 0)).toInt := by
    unfold ScatterDims.start
    rw [dif_pos (show (0 : Fin 2) ∈ (rowScatter C wf).scatterDimsToOperandDims from List.mem_singleton.mpr rfl)]
    have hsi : (rowScatter C wf).siIdx (ix2 e f') ⟨List.idxOf (0 : Fin 2) (rowScatter C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatter C wf).start (ix2 e f') idx 1 = 0 := by
    unfold ScatterDims.start
    rw [dif_neg (show (1 : Fin 2) ∉ (rowScatter C wf).scatterDimsToOperandDims from
      (by decide : (1 : Fin 2) ∉ ([0] : List (Fin 2))))]
  have hw0 : (rowScatter C wf).window (ix2 e f') 0 = 0 := by
    unfold ScatterDims.window
    rw [dif_neg (show (0 : Fin 2) ∉ (rowScatter C wf).sKept from
      (by decide : (0 : Fin 2) ∉ (List.finRange 2).filter (· ∉ ([0] : List (Fin 2)))))]
  have hw1 : (rowScatter C wf).window (ix2 e f') 1 = f'.val := by
    unfold ScatterDims.window
    rw [dif_pos (show (1 : Fin 2) ∈ (rowScatter C wf).sKept from
      (by decide : (1 : Fin 2) ∈ (List.finRange 2).filter (· ∉ ([0] : List (Fin 2)))))]
    rfl
  rw [resultIdx?_eq_some_iff, Fin.forall_fin_two, hs0, hs1, hw0, hw1]
  constructor
  · rintro ⟨ha, hb⟩
    refine ⟨by simpa using ha, Fin.ext ?_⟩
    have : ((f'.val : ℤ)) = (f.val : ℤ) := by simpa using hb
    exact_mod_cast this
  · rintro ⟨ha, rfl⟩
    exact ⟨by simpa using ha, by simp⟩

/-- A scatter-add of whole rows (update window axis 1, inserted axis 0, scatter axis 0, index vector axis 1) at the
    ideal instance: entry (n, f) is the operand's entry plus the sum, over the edges landing on row `n`, of the
    update's entry (e, f). An edge whose raw index is outside [0, 200000) lands nowhere. -/
theorem scatterAdd_rows {C : Nat} (wf : ScatterDims.WF (⟨2, ![200000, C]⟩ : Shape) SE1 (⟨2, ![5200000, C]⟩ : Shape) [1] [0] [0] 1)
    (x : FVec Ideal ⟨2, ![200000, C]⟩ .f32) (idx : IVec SE1 32) (upd : FVec Ideal ⟨2, ![5200000, C]⟩ .f32)
    (n : Fin 200000) (f : Fin C) :
    Host.scatterAdd (F := Ideal) (⟨[1], [0], [0], 1, wf⟩ : ScatterDims ⟨2, ![200000, C]⟩ SE1 ⟨2, ![5200000, C]⟩) x idx upd (ix2 n f)
      = x (ix2 n f) + ∑ e ∈ landing idx n, upd (ix2 e f) := by
  show x (ix2 n f) + ∑ j ∈ Finset.univ.filter (fun j => (rowScatter C wf).resultIdx? j idx = some (ix2 n f)), upd j = _
  refine congrArg (x (ix2 n f) + ·) ?_
  rw [Finset.sum_filter, sum_idx2]
  unfold landing
  rw [Finset.sum_filter]
  refine Finset.sum_congr rfl fun e _ => ?_
  have key : ∀ f' : Fin C,
      (if (rowScatter C wf).resultIdx? (ix2 e f') idx = some (ix2 n f) then upd (ix2 e f') else 0)
        = if f' = f then (if (idx (ix2 e 0)).toInt = (n.val : ℤ) then upd (ix2 e f) else 0) else 0 := by
    intro f'
    by_cases hf : f' = f
    · subst hf
      by_cases hn : (idx (ix2 e 0)).toInt = (n.val : ℤ)
      · rw [if_pos ((rowScatter_lands wf idx e f' n f').2 ⟨hn, rfl⟩), if_pos rfl, if_pos hn]
      · rw [if_neg (fun h => hn ((rowScatter_lands wf idx e f' n f').1 h).1), if_pos rfl, if_neg hn]
    · rw [if_neg (fun h => hf ((rowScatter_lands wf idx e f' n f).1 h).2), if_neg hf]
  rw [Finset.sum_congr rfl fun f' _ => key f']
  simp

end Cert.GCN

end
-- ==== Proof.Bridge.lean ====
/-
  The two orders of one layer agree on real data.
-/
import proofs.«127427_j39908836114582_1_alg».proof.Proof.Spec
import proofs.«127427_j39908836114582_1_alg».proof.Proof.Reals
import proofs.«127427_j39908836114582_1_alg».proof.Proof.Index
import proofs.«127427_j39908836114582_1_alg».proof.Proof.LibDot2
import proofs.«127427_j39908836114582_1_alg».proof.Proof.RefRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.GCN

open Idealize.ShloMosaic Idealize.ShloMosaic.ValueIdx

variable [Cert.KernelIdeal.Facts] [Cert.ReferenceIdeal.Facts]

/-! ## Layout operations read at an entry -/

/-- The float zero broadcast from a scalar to any shape is zero at every entry. -/
private theorem zeroSplat_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- A vector of edge weights reshaped to one column reads the vector's entry. -/
private theorem col_reshape_apply {α : Type} (h : (⟨1, ![5200000]⟩ : Shape).ShapeCasts ⟨2, ![5200000, 1]⟩)
    (ν : (⟨1, ![5200000]⟩ : Shape).Idx → α) (e : Fin 5200000) (u : Fin 1) :
    shapeCast ⟨2, ![5200000, 1]⟩ ν h (ix2 e u) = ν (ix1 e) :=
  shapeCast_apply ν h (ix2 e u) (ix1 e) (by
    rw [Shape.rowMajor_val_one, Shape.rowMajor_val_two]
    show e.val = e.val * 1 + u.val
    omega)

/-- The kernel's column of edge weights at an edge. -/
private theorem colK_apply (ν : FVec Ideal SE .f32) (e : Fin 5200000) (u : Fin 1) : colK ν (ix2 e u) = ν (ix1 e) := by
  unfold colK
  exact col_reshape_apply _ ν e u

/-- A vector of edge weights broadcast to one column reads the vector's entry. -/
private theorem col_bcast_apply {α : Type} (h : (⟨1, ![5200000]⟩ : Shape).BroadcastsInDim ⟨2, ![5200000, 1]⟩ ![0])
    (ν : (⟨1, ![5200000]⟩ : Shape).Idx → α) (e : Fin 5200000) (u : Fin 1) :
    broadcastInDim ⟨2, ![5200000, 1]⟩ ![0] h ν (ix2 e u) = ν (ix1 e) :=
  broadcastInDim_apply _ h ν (ix2 e u) (ix1 e) (fun a => match a with
    | ⟨0, _⟩ => by show e.val = if (5200000 : Nat) = 1 then 0 else e.val; rw [if_neg (by decide)])

/-- One column broadcast along sixteen reads the column's entry of the same row. -/
private theorem col16_bcast_apply {α : Type} (h : (⟨2, ![5200000, 1]⟩ : Shape).BroadcastsInDim ⟨2, ![5200000, 16]⟩ ![0, 1])
    (c : (⟨2, ![5200000, 1]⟩ : Shape).Idx → α) (e : Fin 5200000) (f : Fin 16) :
    broadcastInDim ⟨2, ![5200000, 16]⟩ ![0, 1] h c (ix2 e f) = c (ix2 e 0) :=
  broadcastInDim_apply _ h c (ix2 e f) (ix2 e 0) (fun a => match a with
    | ⟨0, _⟩ => by show e.val = if (5200000 : Nat) = 1 then 0 else e.val; rw [if_neg (by decide)]
    | ⟨1, _⟩ => by show 0 = if (1 : Nat) = 1 then 0 else f.val; rw [if_pos rfl])

/-- The first bias reshaped to one row reads the bias's entry. -/
private theorem bias16_reshape_apply {α : Type} (h : (⟨1, ![16]⟩ : Shape).ShapeCasts ⟨2, ![1, 16]⟩)
    (b : (⟨1, ![16]⟩ : Shape).Idx → α) (u : Fin 1) (f : Fin 16) :
    shapeCast ⟨2, ![1, 16]⟩ b h (ix2 u f) = b (ix1 f) :=
  shapeCast_apply b h (ix2 u f) (ix1 f) (by
    rw [Shape.rowMajor_val_one, Shape.rowMajor_val_two]
    show f.val = u.val * 16 + f.val
    omega)

/-- The first bias broadcast to one row and then down the rows reads the bias's entry. -/
private theorem bias16_bcast_apply {α : Type} (h1 : (⟨1, ![16]⟩ : Shape).BroadcastsInDim ⟨2, ![1, 16]⟩ ![1])
    (h2 : (⟨2, ![1, 16]⟩ : Shape).BroadcastsInDim ⟨2, ![200000, 16]⟩ ![0, 1])
    (b : (⟨1, ![16]⟩ : Shape).Idx → α) (n : Fin 200000) (f : Fin 16) :
    broadcastInDim ⟨2, ![200000, 16]⟩ ![0, 1] h2 (broadcastInDim ⟨2, ![1, 16]⟩ ![1] h1 b) (ix2 n f) = b (ix1 f) := by
  refine (broadcastInDim_apply _ h2 _ (ix2 n f) (ix2 0 f) (fun a => match a with
    | ⟨0, _⟩ => by show 0 = if (1 : Nat) = 1 then 0 else n.val; rw [if_pos rfl]
    | ⟨1, _⟩ => by show f.val = if (16 : Nat) = 1 then 0 else f.val; rw [if_neg (by decide)])).trans ?_
  exact broadcastInDim_apply _ h1 b (ix2 0 f) (ix1 f) (fun a => match a with
    | ⟨0, _⟩ => by show f.val = if (16 : Nat) = 1 then 0 else f.val; rw [if_neg (by decide)])

/-- The second bias reshaped to a one-by-one matrix reads the bias's entry. -/
private theorem bias1_reshape_apply {α : Type} (h : (⟨1, ![1]⟩ : Shape).ShapeCasts ⟨2, ![1, 1]⟩)
    (b : (⟨1, ![1]⟩ : Shape).Idx → α) (u f : Fin 1) :
    shapeCast ⟨2, ![1, 1]⟩ b h (ix2 u f) = b (ix1 f) :=
  shapeCast_apply b h (ix2 u f) (ix1 f) (by
    rw [Shape.rowMajor_val_one, Shape.rowMajor_val_two]
    show f.val = u.val * 1 + f.val
    omega)

/-- The second bias broadcast to a one-by-one matrix and then down the rows reads the bias's entry. -/
private theorem bias1_bcast_apply {α : Type} (h1 : (⟨1, ![1]⟩ : Shape).BroadcastsInDim ⟨2, ![1, 1]⟩ ![1])
    (h2 : (⟨2, ![1, 1]⟩ : Shape).BroadcastsInDim ⟨2, ![200000, 1]⟩ ![0, 1])
    (b : (⟨1, ![1]⟩ : Shape).Idx → α) (n : Fin 200000) (f : Fin 1) :
    broadcastInDim ⟨2, ![200000, 1]⟩ ![0, 1] h2 (broadcastInDim ⟨2, ![1, 1]⟩ ![1] h1 b) (ix2 n f) = b (ix1 f) := by
  obtain rfl : f = 0 := Subsingleton.elim _ _
  refine (broadcastInDim_apply _ h2 _ (ix2 n 0) (ix2 0 0) (fun a => match a with
    | ⟨0, _⟩ => by show 0 = if (1 : Nat) = 1 then 0 else n.val; rw [if_pos rfl]
    | ⟨1, _⟩ => by show 0 = if (1 : Nat) = 1 then 0 else 0; rw [if_pos rfl])).trans ?_
  exact broadcastInDim_apply _ h1 b (ix2 0 0) (ix1 0) (fun a => match a with
    | ⟨0, _⟩ => by show 0 = if (1 : Nat) = 1 then 0 else 0; rw [if_pos rfl])

/-! ## The reference's two projections at an entry -/

open Cert.ReferenceIdeal Cert.ReferenceIdeal.ReadP in
/-- The width-1 features times the 1 × 16 weights, at a row and a column. -/
private theorem dot1_apply (x : FVec Ideal SN1 .f32) (w : FVec Ideal S1x16 .f32) (p : Fin 200000) (j : Fin 16) :
    Host.dotGeneral dot_S200000x1_S1x16_S200000x16_1_0_0_1_n_n none x w (ix2 p j)
      = ∑ a : Fin 1, x (ix2 p a) * w (ix2 a j) := by
  simp only [Host.dotGeneral]
  rw [Ideal.dotGeneral_apply]
  exact Cert.Lib.Dot2.contraction_ix2 (M := 200000) (K := 1) (N := 16) dot_S200000x1_S1x16_S200000x16_1_0_0_1_n_n rfl rfl
    lhs_main_v32_0 lhs_main_v32_1 rhs_main_v32_0 rhs_main_v32_1 x w p j

open Cert.ReferenceIdeal Cert.ReferenceIdeal.ReadP in
/-- The width-16 features times the 16 × 1 weights, at a row and a column. -/
private theorem dot16_apply (h : FVec Ideal SN16 .f32) (w : FVec Ideal S16x1 .f32) (p : Fin 200000) (j : Fin 1) :
    Host.dotGeneral dot_S200000x16_S16x1_S200000x1_1_0_0_1_n_n none h w (ix2 p j)
      = ∑ a : Fin 16, h (ix2 p a) * w (ix2 a j) := by
  simp only [Host.dotGeneral]
  rw [Ideal.dotGeneral_apply]
  exact Cert.Lib.Dot2.contraction_ix2 (M := 200000) (K := 16) (N := 1) dot_S200000x16_S16x1_S200000x1_1_0_0_1_n_n rfl rfl
    lhs_main_v77_0 lhs_main_v77_1 rhs_main_v77_0 rhs_main_v77_1 h w p j

/-! ## The aggregations at an entry -/

open Cert.KernelIdeal Cert.KernelIdeal.Facts₀ in
/-- The kernel's width-1 aggregate at (n, k): the sum over the edges landing on n of the source's feature times the weight. -/
private theorem aggK1_apply (σ δ : IVec SE1 32) (ν : FVec Ideal SE .f32) (x0c : FVec Ideal SN1 .f32) (n : Fin 200000) (k : Fin 1) :
    Host.scatterAdd scatter_S200000x1_S5200000x1_S5200000x1_1_0_0_1
        (broadcastInDim S200000x1 ![] bcast_S_S200000x1 (constant S_ .f32 0x00000000#32)) δ
        (scale1 (Host.gather gather_S200000x1_S5200000x1_S5200000x1_1_0_n_n_0_1_11 x0c σ) (colK ν)) (ix2 n k)
      = 0 + ∑ e ∈ landing δ n, x0c (ix2 (rowOf σ e) k) * ν (ix1 e) := by
  refine (scatterAdd_rows (C := 1) scatter_S200000x1_S5200000x1_S5200000x1_1_0_0_1_wf _ δ _ n k).trans ?_
  rw [zeroSplat_apply]
  refine congrArg (fun s => 0 + s) (Finset.sum_congr rfl fun e _ => ?_)
  show Host.gather _ x0c σ (ix2 e k) * colK ν (ix2 e k) = _
  rw [colK_apply, gather_rows (C := 1) gather_S200000x1_S5200000x1_S5200000x1_1_0_n_n_0_1_11 rfl rfl rfl rfl rfl rfl rfl x0c σ e k]

open Cert.KernelIdeal Cert.KernelIdeal.Facts₀ in
/-- The kernel's width-16 aggregate at (n, k). -/
private theorem aggK16_apply (σ δ : IVec SE1 32) (ν : FVec Ideal SE .f32) (h : FVec Ideal SN16 .f32) (n : Fin 200000) (k : Fin 16) :
    Host.scatterAdd scatter_S200000x16_S5200000x1_S5200000x16_1_0_0_1
        (broadcastInDim S200000x16 ![] bcast_S_S200000x16 (constant S_ .f32 0x00000000#32)) δ
        (scale16 (Host.gather gather_S200000x16_S5200000x1_S5200000x16_1_0_n_n_0_1_116 h σ) (colK ν)) (ix2 n k)
      = 0 + ∑ e ∈ landing δ n, h (ix2 (rowOf σ e) k) * ν (ix1 e) := by
  refine (scatterAdd_rows (C := 16) scatter_S200000x16_S5200000x1_S5200000x16_1_0_0_1_wf _ δ _ n k).trans ?_
  rw [zeroSplat_apply]
  refine congrArg (fun s => 0 + s) (Finset.sum_congr rfl fun e _ => ?_)
  show Host.gather _ h σ (ix2 e k) * colK ν (ix2 e 0) = _
  rw [colK_apply, gather_rows (C := 16) gather_S200000x16_S5200000x1_S5200000x16_1_0_n_n_0_1_116 rfl rfl rfl rfl rfl rfl rfl h σ e k]

open Cert.ReferenceIdeal Cert.ReferenceIdeal.Facts₀ in
/-- The reference's width-16 aggregate of the projected width-1 features at (n, f). -/
private theorem aggR16_apply (σ δ : IVec SE1 32) (ν : FVec Ideal SE .f32) (x0c : FVec Ideal SN1 .f32) (w1t : FVec Ideal S1x16 .f32)
    (n : Fin 200000) (f : Fin 16) :
    Host.scatterAdd scatter_S200000x16_S5200000x1_S5200000x16_1_0_0_1
        (broadcastInDim S200000x16 ![] bcast_S_S200000x16 (constant S_ .f32 0x00000000#32)) δ
        (mulf (Host.gather gather_S200000x16_S5200000x1_S5200000x16_1_0_n_n_0_1_116
                (Host.dotGeneral dot_S200000x1_S1x16_S200000x16_1_0_0_1_n_n none x0c w1t) σ)
          (broadcastInDim S5200000x16 ![0, 1] bcast_S5200000x1_S5200000x16_0_1
            (broadcastInDim S5200000x1 ![0] bcast_S5200000_S5200000x1_0 ν))) (ix2 n f)
      = 0 + ∑ e ∈ landing δ n, (∑ k : Fin 1, x0c (ix2 (rowOf σ e) k) * w1t (ix2 k f)) * ν (ix1 e) := by
  refine (scatterAdd_rows (C := 16) scatter_S200000x16_S5200000x1_S5200000x16_1_0_0_1_wf _ δ _ n f).trans ?_
  rw [zeroSplat_apply]
  refine congrArg (fun s => 0 + s) (Finset.sum_congr rfl fun e _ => ?_)
  rw [mulf_apply, col16_bcast_apply, col_bcast_apply,
    gather_rows (C := 16) gather_S200000x16_S5200000x1_S5200000x16_1_0_n_n_0_1_116 rfl rfl rfl rfl rfl rfl rfl _ σ e f, dot1_apply]

open Cert.ReferenceIdeal Cert.ReferenceIdeal.Facts₀ in
/-- The reference's width-1 aggregate of the projected width-16 features at (n, f). -/
private theorem aggR1_apply (σ δ : IVec SE1 32) (ν : FVec Ideal SE .f32) (h : FVec Ideal SN16 .f32) (w2t : FVec Ideal S16x1 .f32)
    (n : Fin 200000) (f : Fin 1) :
    Host.scatterAdd scatter_S200000x1_S5200000x1_S5200000x1_1_0_0_1
        (broadcastInDim S200000x1 ![] bcast_S_S200000x1 (constant S_ .f32 0x00000000#32)) δ
        (mulf (Host.gather gather_S200000x1_S5200000x1_S5200000x1_1_0_n_n_0_1_11
                (Host.dotGeneral dot_S200000x16_S16x1_S200000x1_1_0_0_1_n_n none h w2t) σ)
          (broadcastInDim S5200000x1 ![0] bcast_S5200000_S5200000x1_0 ν)) (ix2 n f)
      = 0 + ∑ e ∈ landing δ n, (∑ k : Fin 16, h (ix2 (rowOf σ e) k) * w2t (ix2 k f)) * ν (ix1 e) := by
  refine (scatterAdd_rows (C := 1) scatter_S200000x1_S5200000x1_S5200000x1_1_0_0_1_wf _ δ _ n f).trans ?_
  rw [zeroSplat_apply]
  refine congrArg (fun s => 0 + s) (Finset.sum_congr rfl fun e _ => ?_)
  rw [mulf_apply, col_bcast_apply,
    gather_rows (C := 1) gather_S200000x1_S5200000x1_S5200000x1_1_0_n_n_0_1_11 rfl rfl rfl rfl rfl rfl rfl _ σ e f, dot16_apply]

/-! ## Each spelling of a layer at an entry -/

open Cert.KernelIdeal Cert.KernelIdeal.Facts₀ in
/-- The kernel's first layer at (n, f). -/
private theorem kLayer1_apply (σ δ : IVec SE1 32) (ν : FVec Ideal SE .f32) (x0c : FVec Ideal SN1 .f32) (w1t : FVec Ideal S1x16 .f32)
    (b1 : FVec Ideal Cert.KernelIdeal.S16 .f32) (n : Fin 200000) (f : Fin 16) :
    kLayer1 σ δ ν x0c w1t b1 (ix2 n f)
      = max ((∑ k : Fin 1, (0 + ∑ e ∈ landing δ n, x0c (ix2 (rowOf σ e) k) * ν (ix1 e)) * w1t (ix2 k f)) + b1 (ix1 f)) 0 := by
  unfold kLayer1 dense1
  show max ((∑ k : Fin 1, Host.scatterAdd _ _ δ _ (ix2 n k) * w1t (ix2 k f)) + shapeCast _ b1 _ (ix2 0 f))
    (Ideal.ofBits .f32 0x00000000#32) = _
  rw [bias16_reshape_apply, Ideal.ofBits_zero_f32]
  refine congrArg (fun s => max (s + b1 (ix1 f)) 0) (Finset.sum_congr rfl fun k _ => ?_)
  rw [aggK1_apply]

open Cert.KernelIdeal Cert.KernelIdeal.Facts₀ in
/-- The kernel's second layer at (n, f). -/
private theorem kLayer2_apply (σ δ : IVec SE1 32) (ν : FVec Ideal SE .f32) (h : FVec Ideal SN16 .f32) (w2t : FVec Ideal S16x1 .f32)
    (b2 : FVec Ideal Cert.KernelIdeal.S1 .f32) (n : Fin 200000) (f : Fin 1) :
    kLayer2 σ δ ν h w2t b2 (ix2 n f)
      = (∑ k : Fin 16, (0 + ∑ e ∈ landing δ n, h (ix2 (rowOf σ e) k) * ν (ix1 e)) * w2t (ix2 k f)) + b2 (ix1 f) := by
  unfold kLayer2 dense16
  show (∑ k : Fin 16, Host.scatterAdd _ _ δ _ (ix2 n k) * w2t (ix2 k f)) + shapeCast _ b2 _ (ix2 0 f) = _
  rw [bias1_reshape_apply]
  refine congrArg (fun s => s + b2 (ix1 f)) (Finset.sum_congr rfl fun k _ => ?_)
  rw [aggK16_apply]

open Cert.ReferenceIdeal Cert.ReferenceIdeal.Facts₀ in
/-- The reference's first layer at (n, f). -/
private theorem rLayer1_apply (σ δ : IVec SE1 32) (ν : FVec Ideal SE .f32) (x0c : FVec Ideal SN1 .f32) (w1t : FVec Ideal S1x16 .f32)
    (b1 : FVec Ideal Cert.ReferenceIdeal.S16 .f32) (n : Fin 200000) (f : Fin 16) :
    rLayer1 σ δ ν x0c w1t b1 (ix2 n f)
      = max ((0 + ∑ e ∈ landing δ n, (∑ k : Fin 1, x0c (ix2 (rowOf σ e) k) * w1t (ix2 k f)) * ν (ix1 e)) + b1 (ix1 f)) 0 := by
  unfold rLayer1
  rw [maximumf_apply, addf_apply, zeroSplat_apply, bias16_bcast_apply, aggR16_apply]

open Cert.ReferenceIdeal Cert.ReferenceIdeal.Facts₀ in
/-- The reference's second layer at (n, f). -/
private theorem rLayer2_apply (σ δ : IVec SE1 32) (ν : FVec Ideal SE .f32) (h : FVec Ideal SN16 .f32) (w2t : FVec Ideal S16x1 .f32)
    (b2 : FVec Ideal Cert.ReferenceIdeal.S1 .f32) (n : Fin 200000) (f : Fin 1) :
    rLayer2 σ δ ν h w2t b2 (ix2 n f)
      = (0 + ∑ e ∈ landing δ n, (∑ k : Fin 16, h (ix2 (rowOf σ e) k) * w2t (ix2 k f)) * ν (ix1 e)) + b2 (ix1 f) := by
  unfold rLayer2
  rw [addf_apply, bias1_bcast_apply, aggR1_apply]

/-! ## The two orders agree -/

/-- First layer: aggregate-then-project equals project-then-aggregate, entry by entry, when the features, the weights
    of the projection and the edge weights are real. -/
theorem layer1_eq (σ δ : IVec SE1 32) (ν : FVec Ideal SE .f32) (x0c : FVec Ideal SN1 .f32) (w1t : FVec Ideal S1x16 .f32)
    (b1 : FVec Ideal Cert.KernelIdeal.S16 .f32)
    (hν : ∀ e, IsReal (ν e)) (hx : ∀ i, IsReal (x0c i)) (hw : ∀ i, IsReal (w1t i)) :
    kLayer1 σ δ ν x0c w1t b1 = rLayer1 σ δ ν x0c w1t b1 := by
  funext i
  obtain ⟨n, f, rfl⟩ : ∃ n f, i = ix2 n f := ⟨i 0, i 1, eq_ix2 i⟩
  rw [kLayer1_apply, rLayer1_apply,
    agg_swap (landing δ n) (fun e k => x0c (ix2 (rowOf σ e) k)) (fun e => ν (ix1 e)) (fun k => w1t (ix2 k f))
      (fun e k => hx _) (fun e => hν _) (fun k => hw _)]

/-- The first layer's output is real when its inputs are. -/
theorem layer1_real (σ δ : IVec SE1 32) (ν : FVec Ideal SE .f32) (x0c : FVec Ideal SN1 .f32) (w1t : FVec Ideal S1x16 .f32)
    (b1 : FVec Ideal Cert.KernelIdeal.S16 .f32)
    (hν : ∀ e, IsReal (ν e)) (hx : ∀ i, IsReal (x0c i)) (hw : ∀ i, IsReal (w1t i)) (hb : ∀ i, IsReal (b1 i)) :
    ∀ i, IsReal (kLayer1 σ δ ν x0c w1t b1 i) := by
  intro i
  obtain ⟨n, f, rfl⟩ : ∃ n f, i = ix2 n f := ⟨i 0, i 1, eq_ix2 i⟩
  rw [kLayer1_apply]
  refine IsReal.max (IsReal.add (IsReal.sum _ _ fun k _ => IsReal.mul (IsReal.add IsReal.zero
    (IsReal.sum _ _ fun e _ => IsReal.mul (hx _) (hν _))) (hw _)) (hb _)) IsReal.zero

/-- Second layer: the same law at contraction width 16. -/
theorem layer2_eq (σ δ : IVec SE1 32) (ν : FVec Ideal SE .f32) (h : FVec Ideal SN16 .f32) (w2t : FVec Ideal S16x1 .f32)
    (b2 : FVec Ideal Cert.KernelIdeal.S1 .f32)
    (hν : ∀ e, IsReal (ν e)) (hh : ∀ i, IsReal (h i)) (hw : ∀ i, IsReal (w2t i)) :
    kLayer2 σ δ ν h w2t b2 = rLayer2 σ δ ν h w2t b2 := by
  funext i
  obtain ⟨n, f, rfl⟩ : ∃ n f, i = ix2 n f := ⟨i 0, i 1, eq_ix2 i⟩
  rw [kLayer2_apply, rLayer2_apply,
    agg_swap (landing δ n) (fun e k => h (ix2 (rowOf σ e) k)) (fun e => ν (ix1 e)) (fun k => w2t (ix2 k f))
      (fun e k => hh _) (fun e => hν _) (fun k => hw _)]

end Cert.GCN

end
-- ==== Proof.NormReal.lean ====
/-
  The edge weights are real numbers: a degree is a finite count, its inverse square root is taken only where it is positive.
-/
import proofs.«127427_j39908836114582_1_alg».proof.Proof.Spec
import proofs.«127427_j39908836114582_1_alg».proof.Proof.Reals
import Idealize.ShloMosaic.Lib.ValueIdx
import Idealize.ShloMosaic.Lib.IdealHost

noncomputable section

namespace Cert.GCN

open Idealize.ShloMosaic Idealize.ShloMosaic.ValueIdx

variable [Cert.KernelIdeal.Facts]

/-- A finite sum of ones is a real number that is not negative (the number of terms). -/
private theorem sum_one_real {ι : Type*} (S : Finset ι) :
    ∃ r : ℝ, 0 ≤ r ∧ (∑ _j ∈ S, (1 : EReal)) = (r : EReal) := by
  classical
  induction S using Finset.induction_on with
  | empty => exact ⟨0, le_refl _, by simp⟩
  | insert i T hi ih =>
    obtain ⟨r, hr, h⟩ := ih
    refine ⟨1 + r, by linarith, ?_⟩
    rw [Finset.sum_insert hi, h, EReal.coe_add, EReal.coe_one]

/-- An accumulating scatter of ones into zeros holds, at every element, a real number that is not negative: zero plus
    a one for every update that lands there. -/
private theorem scatterAdd_ones_real {s si su : Shape} {w : Nat} (d : ScatterDims s si su) (x : FVec Ideal s .f32)
    (idx : IVec si w) (upd : FVec Ideal su .f32) (hx : ∀ i, x i = 0) (hu : ∀ j, upd j = 1) (n : s.Idx) :
    ∃ r : ℝ, 0 ≤ r ∧ Host.scatterAdd d x idx upd n = (r : EReal) := by
  have hdef : Host.scatterAdd d x idx upd n
      = x n + ∑ j ∈ Finset.univ.filter (fun j => d.resultIdx? j idx = some n), upd j := rfl
  rw [hdef, hx, zero_add, Finset.sum_congr rfl (fun j _ => hu j)]
  exact sum_one_real _

/-- Where the degree is a real number that is not negative, the guarded inverse square root is real: the inverse
    square root of a positive real where the degree is positive, the zero word elsewhere. -/
private theorem select_rsqrt_real {s : Shape} (deg z z' : FVec Ideal s .f32) (n : s.Idx) (hz : z n = 0) (hz' : z' n = 0)
    (hd : ∃ r : ℝ, 0 ≤ r ∧ deg n = (r : EReal)) :
    IsReal (select (cmpf .ogt deg z) (Host.rsqrt deg) z' n) := by
  obtain ⟨r, hr, h⟩ := hd
  have hdef : select (cmpf .ogt deg z) (Host.rsqrt deg) z' n
      = Scalar.select (Ideal.cmp .ogt (deg n) (z n)) (Ideal.rsqrt (deg n)) (z' n) := rfl
  rw [hdef, hz, hz', h]
  by_cases hpos : 0 < r
  · have hc : Ideal.cmp .ogt (r : EReal) 0 = 1#1 := by
      have : (0 : EReal) < (r : EReal) := by exact_mod_cast hpos
      simp [Ideal.cmp, this]
    rw [hc, select_one]
    show IsReal (if r < 0 then ⊥ else if r = 0 then ⊤ else (((Real.sqrt r)⁻¹ : ℝ) : EReal))
    rw [if_neg (not_lt.mpr hr), if_neg (ne_of_gt hpos)]
    exact IsReal.coe _
  · have hc : Ideal.cmp .ogt (r : EReal) 0 = 0#1 := by
      have : ¬ (0 : EReal) < (r : EReal) := by exact_mod_cast hpos
      simp [Ideal.cmp, this]
    rw [hc, select_zero]
    exact IsReal.zero

/-- A gather of an array of reals holds reals: each element read is some element of the operand. -/
private theorem gather_real {s si t : Shape} {w : Nat} (d : GatherDims s si t) (x : FVec Ideal s .f32) (idx : IVec si w)
    (hx : ∀ i, IsReal (x i)) (j : t.Idx) : IsReal (Host.gather d x idx j) := hx _

/-- A scalar zero word broadcast to any shape reads zero everywhere. -/
private theorem bcast_zero {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- A scalar one word broadcast to any shape reads one everywhere. -/
private theorem bcast_one {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply, constant_apply, Ideal.ofBits_one_f32]

open Cert.KernelIdeal Cert.KernelIdeal.Facts₀ in
/-- The zero array reads zero at every node. -/
private theorem zeros_apply (i : S200000.Idx) : (broadcastInDim S200000 ![] bcast_S_S200000 (constant S_ .f32 0x00000000#32) : FVec Ideal S200000 .f32) i = 0 := bcast_zero _ i

open Cert.KernelIdeal Cert.KernelIdeal.Facts₀ in
/-- The array of ones reads one at every edge. -/
private theorem ones_apply (i : S5200000.Idx) : (broadcastInDim S5200000 ![] bcast_S_S5200000 (constant S_ .f32 0x3F800000#32) : FVec Ideal S5200000 .f32) i = 1 := bcast_one _ i

open Cert.KernelIdeal Cert.KernelIdeal.Facts₀ in
/-- The degree array, spelt out: ones scattered with accumulation into zeros. -/
private theorem deg_eq (δ : IVec SE1 32) : degOf δ = Host.scatterAdd scatter_S200000_S5200000x1_S5200000_n_0_0_1
    (broadcastInDim S200000 ![] bcast_S_S200000 (constant S_ .f32 0x00000000#32)) δ
    (broadcastInDim S5200000 ![] bcast_S_S5200000 (constant S_ .f32 0x3F800000#32)) := rfl

open Cert.KernelIdeal Cert.KernelIdeal.Facts₀ in
/-- A degree is a real number that is not negative. -/
private theorem deg_real_nonneg (δ : IVec SE1 32) (n : S200000.Idx) :
    ∃ r : ℝ, 0 ≤ r ∧ degOf δ n = (r : EReal) := by
  rw [deg_eq]
  exact scatterAdd_ones_real scatter_S200000_S5200000x1_S5200000_n_0_0_1
    (broadcastInDim S200000 ![] bcast_S_S200000 (constant S_ .f32 0x00000000#32)) δ
    (broadcastInDim S5200000 ![] bcast_S_S5200000 (constant S_ .f32 0x3F800000#32)) zeros_apply ones_apply n

open Cert.KernelIdeal Cert.KernelIdeal.Facts₀ in
/-- The normaliser array, spelt out: the inverse square root guarded by the test that the degree is positive. -/
private theorem dinv_eq (deg : FVec Ideal S200000 .f32) : dinvOf deg =
    select (cmpf .ogt deg (broadcastInDim S200000 ![] bcast_S_S200000 (constant S_ .f32 0x00000000#32)))
      (Host.rsqrt deg)
      (broadcastInDim S200000 ![] bcast_S_S200000 (constant S_ .f32 0x00000000#32)) := rfl

open Cert.KernelIdeal Cert.KernelIdeal.Facts₀ in
/-- The normaliser is real at every node. -/
private theorem dinv_real (δ : IVec SE1 32) (n : S200000.Idx) :
    IsReal (dinvOf (degOf δ) n) := by
  rw [dinv_eq]
  exact select_rsqrt_real (degOf δ)
    (broadcastInDim S200000 ![] bcast_S_S200000 (constant S_ .f32 0x00000000#32))
    (broadcastInDim S200000 ![] bcast_S_S200000 (constant S_ .f32 0x00000000#32)) n
    (zeros_apply n) (zeros_apply n) (deg_real_nonneg δ n)

open Cert.KernelIdeal Cert.KernelIdeal.Facts₀ in
/-- An edge weight, spelt out: the product of two gathered normalisers. -/
private theorem norm_eq (dinv : FVec Ideal S200000 .f32) (a b : IVec SE1 32) (e : SE.Idx) :
    normOf dinv a b e
      = Host.gather gather_S200000_S5200000x1_S5200000_n_0_n_n_0_1_1 dinv a e
        * Host.gather gather_S200000_S5200000x1_S5200000_n_0_n_n_0_1_1 dinv b e := rfl

open Cert.KernelIdeal Cert.KernelIdeal.Facts₀ in
/-- Every edge weight `dinv (row a e) * dinv (row b e)` is real, whatever the index arrays hold. -/
theorem norm_real (δ a b : IVec SE1 32) (e : SE.Idx) : IsReal (normOf (dinvOf (degOf δ)) a b e) := by
  rw [norm_eq]
  exact IsReal.mul
    (gather_real gather_S200000_S5200000x1_S5200000_n_0_n_n_0_1_1 (dinvOf (degOf δ)) a (dinv_real δ) e)
    (gather_real gather_S200000_S5200000x1_S5200000_n_0_n_n_0_1_1 (dinvOf (degOf δ)) b (dinv_real δ) e)

end Cert.GCN

end
-- ==== Proof.PreReal.lean ====
/-
  Under the precondition every float argument array holds real numbers.
-/
import proofs.«127427_j39908836114582_1_alg».proof.Defs
import proofs.«127427_j39908836114582_1_alg».proof.Proof.Gen.Pre_finite_inputs
import proofs.«127427_j39908836114582_1_alg».proof.Proof.Gen.KernelIdeal
import proofs.«127427_j39908836114582_1_alg».proof.Proof.Reals
import Idealize.ShloMosaic.Lib.ReduceAll
import Idealize.ShloMosaic.Lib.ValueIdx

noncomputable section

namespace Cert.GCN

open Idealize.ShloMosaic Idealize.ShloMosaic.ValueIdx Idealize.SL.Sem
open Cert.KernelIdeal

/-- The rank-zero shape has a single index. -/
private instance subsingleton_scalar_idx : Subsingleton Cert.Pre_finite_inputs.S_.Idx :=
  ⟨fun a b => funext fun d => d.elim0⟩

/-- The bit pattern of +∞ in single precision denotes ⊤. -/
private theorem inf_pattern : (FloatOps.ofBits (F := Ideal) .f32 0x7F800000#32 : EReal) = ⊤ := by
  show Ideal.ofBits .f32 0x7F800000#32 = ⊤
  simp [Ideal.ofBits, Ideal.ieee]

/-- An extended real whose absolute value max x (-x) lies strictly below ⊤ is a real number. -/
private theorem isReal_of_abs_lt_top {x : EReal} (h : max x (-x) < ⊤) : IsReal x := by
  refine IsReal.of_ne ?_ ?_
  · rintro rfl
    simp at h
  · rintro rfl
    simp at h

/-- One conjunct of the finiteness check: if the conjunction over all entries of |x| < +∞ holds, every entry of x is real. -/
private theorem finite_check_real {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32)
    (h : Host.reduce IntOp.andi
          (cmpf .olt (Host.absf x) (broadcastInDim S ![] hb (constant (F := Ideal) Cert.Pre_finite_inputs.S_ .f32 0x7F800000#32)))
          (constantI Cert.Pre_finite_inputs.S_ 1 1#1) hr hu ix0 = 1#1) :
    ∀ i, IsReal (x i) := by
  intro i
  have e := Host.reduce_andi_all _ _ hr hu ix0 h i
  have e' : Ideal.cmp .olt (max (x i) (-(x i))) (FloatOps.ofBits (F := Ideal) .f32 0x7F800000#32) = 1#1 := e
  rw [inf_pattern] at e'
  apply isReal_of_abs_lt_top
  by_contra hn
  simp [Ideal.cmp, hn] at e'

/-- The precondition says each float argument is finite in absolute value at every entry: each entry is a real. -/
theorem inputs_real (m : (ℓ : Loc nD τ sig) → Buf (Elt Ideal) ℓ)
    (hpre : Cert.Pre_KernelIdeal (hPre_finite_inputs := Cert.Pre_finite_inputs.Gen.facts) m) (c : Dev nD) :
    (∀ i, IsReal (m ((c.tc : Thread nD τ).loc main_arg0) i))
    ∧ (∀ i, IsReal (m ((c.tc : Thread nD τ).loc main_arg1) i))
    ∧ (∀ i, IsReal (m ((c.tc : Thread nD τ).loc main_arg2) i))
    ∧ (∀ i, IsReal (m ((c.tc : Thread nD τ).loc main_arg3) i))
    ∧ (∀ i, IsReal (m ((c.tc : Thread nD τ).loc main_arg4) i)) := by
  have h := congrFun (hpre c) ValueIdx.ix0
  dsimp only [Cert.Pre_finite_inputs.fn, Cert.Pre_finite_inputs.fn_part1] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨finite_check_real _ _ _ _ h0, finite_check_real _ _ _ _ h1, finite_check_real _ _ _ _ h2,
    finite_check_real _ _ _ _ h3, finite_check_real _ _ _ _ h4⟩

end Cert.GCN

end
-- ==== Proof.lean ====
/-
  A two-layer graph convolution with symmetric normalisation on 200,000 nodes and 5,200,000 edges (the given edges and
  one self loop per node): the kernel program aggregates the raw features per node and projects afterwards, the
  reference projects every node first and aggregates the projections. Over the reals the two orders agree, by
  distributivity and a swap of two finite sums; over the extended reals this needs every entry to be real, which the
  precondition gives for the inputs and which the degrees (finite counts), their inverse square roots (taken only
  where positive) and every later stage inherit.

  The three frames are the generated ones (the reference's is its run with the result dropped); the ideal pass
  rewrote nothing, so the idealization claim is trivial; the value claim runs both programs, names the kernel's
  result boundary by boundary and the reference's stage by stage, and joins them by the two layer laws.
-/
import proofs.«127427_j39908836114582_1_alg».proof.Defs
import proofs.«127427_j39908836114582_1_alg».proof.Proof.Gen.Kernel
import proofs.«127427_j39908836114582_1_alg».proof.Proof.Gen.Kernel.Skeleton
import proofs.«127427_j39908836114582_1_alg».proof.Proof.Gen.Kernel.Launch
import proofs.«127427_j39908836114582_1_alg».proof.Proof.Gen.Kernel.Points
import proofs.«127427_j39908836114582_1_alg».proof.Proof.Gen.Kernel.Frame
import proofs.«127427_j39908836114582_1_alg».proof.Proof.Gen.KernelIdeal
import proofs.«127427_j39908836114582_1_alg».proof.Proof.Gen.KernelIdeal.Skeleton
import proofs.«127427_j39908836114582_1_alg».proof.Proof.Gen.KernelIdeal.Launch
import proofs.«127427_j39908836114582_1_alg».proof.Proof.Gen.KernelIdeal.Points
import proofs.«127427_j39908836114582_1_alg».proof.Proof.Gen.KernelIdeal.Frame
import proofs.«127427_j39908836114582_1_alg».proof.Proof.Gen.ReferenceIdeal
import proofs.«127427_j39908836114582_1_alg».proof.Proof.Gen.Pre_finite_inputs
import proofs.«127427_j39908836114582_1_alg».proof.Proof.RefRun
import proofs.«127427_j39908836114582_1_alg».proof.Proof.RefRead
import proofs.«127427_j39908836114582_1_alg».proof.Proof.RefChain
import proofs.«127427_j39908836114582_1_alg».proof.Proof.KernelRun
import proofs.«127427_j39908836114582_1_alg».proof.Proof.KernelChain
import proofs.«127427_j39908836114582_1_alg».proof.Proof.Bridge
import proofs.«127427_j39908836114582_1_alg».proof.Proof.NormReal
import proofs.«127427_j39908836114582_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Cert.GCN

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

open Cert.GCN.Chain in
/-- On real inputs the reference's two layers, over the same edge columns and weights, are the kernel's. -/
theorem layers_eq (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    rLayer2 (σ m c) (δ m c) (ν m c) (rLayer1 (σ m c) (δ m c) (ν m c) (x0c m c) (w1t m c) (A2 m c)) (w2t m c) (A4 m c)
      = kLayer2 (σ m c) (δ m c) (ν m c) (h1 m c) (w2t m c) (A4 m c) := by
  obtain ⟨r0, r1, r2, r3, _⟩ := inputs_real m hpre c
  have hν : ∀ e, IsReal (ν m c e) := fun e => norm_real _ _ _ e
  have hx : ∀ i, IsReal (x0c m c i) := fun i => r0 _
  have hw1 : ∀ i, IsReal (w1t m c i) := fun i => r1 _
  have hw2 : ∀ i, IsReal (w2t m c i) := fun i => r3 _
  rw [← layer1_eq (σ m c) (δ m c) (ν m c) (x0c m c) (w1t m c) (A2 m c) hν hx hw1]
  exact (layer2_eq (σ m c) (δ m c) (ν m c) (h1 m c) (w2t m c) (A4 m c) hν
    (layer1_real (σ m c) (δ m c) (ν m c) (x0c m c) (w1t m c) (A2 m c) hν hx hw1 r2) hw2).symm

open Cert.GCN.Chain Cert.ReferenceIdeal.ReadP in
/-- Both programs run; the kernel's result, read off its last boundary, and the reference's, read off its last stage,
    are one array. -/
theorem algebraic : Cert.algebraic_KernelIdeal_ReferenceIdeal := by
  intro m ρ m' ρ' hpre hagree
  refine ⟨fun c => kLayer2 (σ m c) (δ m c) (ν m c) (h1 m c) (w2t m c) (A4 m c), ?_, ?_⟩
  · exact (θ_run Cert.KernelIdeal.defs _ _).mono (fun _ h c => ⟨(h c).1.trans (kernel_value m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.ValueP.run (F := Ideal) m' ρ')
    rw [val_main_v92_eq, (hagree c).1, (hagree c).2.1, (hagree c).2.2.1, (hagree c).2.2.2.1, (hagree c).2.2.2.2.1,
      (hagree c).2.2.2.2.2, ref_layer2, ref_layer1, ref_src, ref_src', ref_dst, ref_dst', ref_norm, ref_norm']
    exact layers_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
